-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S100000x64 : Shape := ⟨2, ![100000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg1 main_v39
  let main_c_15 : IVec S_ 1 := constantI S_ 1 1#1
  let main_v41 : IVec S_ 1 := (fun x v => Host.reduce IntOp.andi x v reducesTo_S1600000_S_d0 h_S_) main_v40 main_c_15
  let main_v42 : IVec S_ 1 := andi main_v38 main_v41
  main_v42

def fn_part1 {F : FTy → Type} [FloatOps F] (main_arg1 : IVec S1600000 32) (main_arg6 : FVec F S128x64 .f32) (main_arg7 : FVec F S64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg9 main_v33

def fn {F : FTy → Type} [FloatOps F] (main_arg0 : FVec F S100000x256 .f32) (main_arg1 : IVec S1600000 32) (main_arg2 : IVec S1600000 32) (main_arg3 : FVec F S100000x64 .f32) (main_arg4 : FVec F S256x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_v13 main_v16
-- ==== Kernel.lean ====
abbrev S100000x256 : Shape := ⟨2, ![100000, 256]⟩
abbrev S1600000 : Shape := ⟨1, ![1600000]⟩
abbrev S100000x64 : Shape := ⟨2, ![100000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S128x128 : Shape := ⟨2, ![128, 128]⟩
abbrev S1x128 : Shape := ⟨2, ![1, 128]⟩
abbrev S2000x64 : Shape := ⟨2, ![2000, 64]⟩
abbrev S1x64 : Shape := ⟨2, ![1, 64]⟩

abbrev nBuf : Space → Nat
  | .hbm => 53
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S100000x1, .f32⟩
  | .hbm, ⟨40, _⟩ => ⟨S100000x1, .f32⟩
  | .hbm, ⟨41, _⟩ => ⟨S1x128, .f32⟩
  | .hbm, ⟨42, _⟩ => ⟨S100000x128, .f32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128, .f32⟩
  | .hbm, ⟨50, _⟩ => ⟨S100000x1, .f32⟩
  | .hbm, ⟨51, _⟩ => ⟨S1x128, .f32⟩
  | .hbm, ⟨52, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_v0 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_v0 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  concatenates_S128x64_S128x64_S128x128_d1 : Shape.Concatenates [S128x64, S128x64] S128x128 1
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S64_S64_S128_d0 : Shape.Concatenates [S64, S64] S128 0
  inb_S2000x64_S2000x64_0_0 : ∀ a, (![0, 0] : Fin 2 → Nat) a + S2000x64.size a ≤ S2000x64.size a
  h_S2000x64 : 0 < S2000x64.numel
  slices_S2000x128_o0_0_S2000x64 : S2000x128.Slices ![0, 0] S2000x64
  broadcasts_S2000x1_S2000x64 : S2000x1.Broadcasts S2000x64
  slices_S1x128_o0_0_S1x64 : S1x128.Slices ![0, 0] S1x64
  broadcasts_S1x64_S2000x64 : S1x64.Broadcasts S2000x64
  slices_S2000x128_o0_64_S2000x64 : S2000x128.Slices ![0, 64] S2000x64
  slices_S1x128_o0_64_S1x64 : S1x128.Slices ![0, 64] S1x64
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S100000x64 : Shape := ⟨2, ![100000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S1600000, .i32⟩
  | 2 => ⟨S1600000, .i32⟩
  | 3 => ⟨S100000x64, .f32⟩
  | 4 => ⟨S256x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S100000x256, .f32⟩
  | 32 => ⟨S100000x256, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x1, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S1600000, .f32⟩
  | 58 => ⟨S_, .f32⟩
  | 59 => ⟨S100000, .f32⟩
  | 60 => ⟨S1600000x1, .i32⟩
  | 61 => ⟨S100000, .f32⟩
  | 62 => ⟨S_, .f32⟩
  | 63 => ⟨S100000, .f32⟩
  | 64 => ⟨S100000, .f32⟩
  | 65 => ⟨S100000, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S100000x1, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S100000, .f32⟩
  | 107 => ⟨S100000, .f32⟩
  | 108 => ⟨S100000, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x256, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x1, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S100000x64, .f32⟩
  | 15 => ⟨S100000x64, .f32⟩
  | 16 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_cst : Ref sig .tc := ⟨.hbm, 53, rfl⟩
abbrev main_call0_v0 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_c_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_cst_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_21 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_c_23 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_24 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Region0.lean ====
/-
  Region 0 (the row-scaled product). Every grid point t loads rows [2000 t, 2000 t + 2000) of x and of the
  column s, and the whole of w, and stores the block (x ⊙ s) · w of the output; the fifty blocks tile the
  100000 rows, so the output array after the region is one function of the three arrays the region finds.
-/
import proofs.«418309_j64063732187138_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region0

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Entry (n, j) of the row-scaled product: the sum over k of (x[n, k] · s[n]) · w[k, j]. -/
def rowScaledProd (x : S100000x256.Idx → EReal) (s : S100000x1.Idx → EReal) (w : S256x128.Idx → EReal) : S100000x128.Idx → EReal :=
  fun i => ∑ k : Fin 256, (x (ix2 (i 0) k) * s (ix2 (i 0) 0)) * w (ix2 k (i 1))

/-! ## One block of the product: the body's arithmetic at an entry -/

/-- The two zero offsets of a whole-block access, as the constant function. -/
theorem hz : (![0, 0] : Fin 2 → Nat) = fun _ => 0 := funext fun a => by fin_cases a <;> rfl

/-- The left operand of the block product is read at the output's row … -/
theorem lhs_dot_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and at the summation index along its columns; -/
theorem lhs_dot_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- the right operand at the summation index along its rows … -/
theorem rhs_dot_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- … and at the output's column. -/
theorem rhs_dot_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The column of scales spread along a row of 256: entry (p, k) is the scale of row p. -/
theorem spread_apply (s : Vec Ideal S2000x1 .f32) (p : Fin 2000) (k : Fin 256) :
    broadcastTo S2000x256 s broadcasts_S2000x1_S2000x256 (ix2 p k) = s (ix2 p 0) :=
  broadcastTo_apply s broadcasts_S2000x1_S2000x256 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- Entry (p, q) of what the body stores: the sum over k of (x[p, k] · s[p]) · w[k, q] of the three blocks it loads
    (the changes of float format are the identity on the extended reals, and the product starts from zero). -/
theorem payload_apply (x0 : Vec Ideal S2000x256 .f32) (x1 : Vec Ideal S2000x1 .f32) (x2 : Vec Ideal S256x128 .f32) (p : Fin 2000) (q : Fin 128) :
    k0_pay1 (F := Ideal) x0 x1 x2 (ix2 p q) = ∑ k : Fin 256, (x0 (ix2 p k) * x1 (ix2 p 0)) * x2 (ix2 k q) := by
  unfold k0_pay1
  simp only [shapeCast_self, matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er, truncf_apply, truncf_apply, mulf_apply, spread_apply]

/-! ## The blocks a point loads, as rows of the arrays -/

/-- The three arrays the region reads, and the three blocks point t loads, at their literal types. -/
abbrev xarr (c : Dev nD) : S100000x256.Idx → EReal := V c main_arg0
abbrev sarr (c : Dev nD) : S100000x1.Idx → EReal := V c main_v14
abbrev warr (c : Dev nD) : S256x128.Idx → EReal := V c main_arg4
abbrev xblk (c : Dev nD) (t : Fin cfg0.N) : Vec Ideal S2000x256 .f32 := iblk0 V c 0 t
abbrev sblk (c : Dev nD) (t : Fin cfg0.N) : Vec Ideal S2000x1 .f32 := iblk0 V c 1 t
abbrev wblk (c : Dev nD) (t : Fin cfg0.N) : Vec Ideal S256x128 .f32 := iblk0 V c 2 t

/-- The block indices over the grid: x, s and the output move by rows with the point, w stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of x is row 2000 t + p of x. -/
theorem xblk_apply (c : Dev nD) (t : Fin cfg0.N) (p : Fin 2000) (k : Fin 256) (r : Fin 100000) (hr : r.val = t.val * 2000 + p.val) :
    xblk V c t (ix2 p k) = xarr V c (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Row p of point t's block of the scales is row 2000 t + p of the column. -/
theorem sblk_apply (c : Dev nD) (t : Fin cfg0.N) (p : Fin 2000) (r : Fin 100000) (hr : r.val = t.val * 2000 + p.val) :
    sblk V c t (ix2 p 0) = sarr V c (ix2 r 0) := by
  obtain ⟨-, -, e0, e1, -⟩ := idx_facts t
  show V c main_v14 (((cfg0.win 1).blk t).view.emb (ix2 p 0)) = V c main_v14 (ix2 r 0)
  refine congrArg (V c main_v14) (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- Every point's block of w is w. -/
theorem wblk_apply (c : Dev nD) (t : Fin cfg0.N) (k : Fin 256) (q : Fin 128) :
    wblk V c t (ix2 k q) = warr V c (ix2 k q) := by
  obtain ⟨-, -, -, -, e0, e1, -⟩ := idx_facts t
  show V c main_arg4 (((cfg0.win 2).blk t).view.emb (ix2 k q)) = V c main_arg4 (ix2 k q)
  refine congrArg (V c main_arg4) (funext fun a => Fin.ext ?_)
  match a with
  | ⟨0, _⟩ => show win0_2.index t (0 : Fin 2) * 256 + 1 * k.val = k.val; rw [e0]; omega
  | ⟨1, _⟩ => show win0_2.index t (1 : Fin 2) * 128 + 1 * q.val = q.val; rw [e1]; omega

/-- Row p of point t's output block is row 2000 t + p of the output array. -/
theorem oblk_emb (t : Fin cfg0.N) (p : Fin 2000) (q : Fin 128) (r : Fin 100000) (hr : r.val = t.val * 2000 + p.val) :
    (((cfg0.win 3).blk t).view.emb (ix2 p q) : S100000x128.Idx) = ix2 r q := by
  obtain ⟨-, -, -, -, -, -, e0, e1⟩ := idx_facts t
  refine funext fun a => Fin.ext ?_
  match a with
  | ⟨0, _⟩ => show win0_3.index t (0 : Fin 2) * 2000 + 1 * p.val = r.val; rw [e0, hr]; omega
  | ⟨1, _⟩ => show win0_3.index t (1 : Fin 2) * 128 + 1 * q.val = q.val; rw [e1]; omega

/-! ## What a point writes back, and the whole array -/

/-- What point t writes back is block t of the row-scaled product of the arrays the region finds. -/
theorem flushed_eq (c : Dev nD) (t : Fin cfg0.N) :
    (dat0 (F := Ideal) V c).flushed 3 t = ((cfg0.win 3).blk t).view.read (Elt Ideal) (rowScaledProd (V c main_arg0) (V c main_v14) (V c main_arg4)) := by
  show (cfg0.win 3).cut (grid0.coords t) ((dat0 V c).after 3 t) = _
  rw [after0_3]
  unfold out0_3
  rw [View.canon_unit_zero hz]
  simp only [View.ld_unit_zero (S := S2000x256) hz, View.ld_unit_zero (S := S2000x1) hz, View.ld_unit_zero (S := S256x128) hz]
  refine funext fun (j : S2000x128.Idx) => ?_
  obtain ⟨p, q, rfl⟩ : ∃ (p : Fin 2000) (q : Fin 128), j = ix2 p q := ⟨j 0, j 1, eq_ix2 j⟩
  have ht : t.val < 50 := lt_of_lt_of_eq t.isLt N_0
  have hp : p.val < 2000 := p.isLt
  let r : Fin 100000 := ⟨t.val * 2000 + p.val, by omega⟩
  show k0_pay1 (F := Ideal) (xblk V c t) (sblk V c t) (wblk V c t) (ix2 p q) = rowScaledProd (xarr V c) (sarr V c) (warr V c) (((cfg0.win 3).blk t).view.emb (ix2 p q))
  rw [payload_apply, oblk_emb t p q r rfl]
  show ∑ k : Fin 256, (xblk V c t (ix2 p k) * sblk V c t (ix2 p 0)) * wblk V c t (ix2 k q) = ∑ k : Fin 256, (xarr V c (ix2 r k) * sarr V c (ix2 r 0)) * warr V c (ix2 k q)
  refine Finset.sum_congr rfl fun k _ => ?_
  rw [xblk_apply V c t p k r rfl, sblk_apply V c t p r rfl, wblk_apply V c t k q]

/-- An index of the output array is in point t's block iff its row lies in the block's 2000 rows. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- Every row of the output lies in the block of the point row / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 2000, by rw [show cfg0.N = 50 from N_0]; omega⟩
  obtain ⟨-, -, -, -, -, -, e0, e1⟩ := idx_facts t
  have e0' : win0_3.index t (0 : Fin 2) = (i 0).val / 2000 := e0
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0']; omega
  | ⟨1, _⟩ => show win0_3.index t (1 : Fin 2) * 128 ≤ (i 1).val ∧ (i 1).val < win0_3.index t (1 : Fin 2) * 128 + 128; rw [e1]; omega

/-- The output array of region 0 after its fifty points, as a function of the arrays the region is entered with. -/
theorem final0 (c : Dev nD) :
    (dat0 (F := Ideal) V c).arrAt 3 cfg0.N = rowScaledProd (V c main_arg0) (V c main_v14) (V c main_arg4) :=
  (dat0 (F := Ideal) V c).arrAt_eq_of_cover 3 _ (fun t _ => flushed_eq V c t) cover

end Cert.KernelIdeal.Region0

end
-- ==== Proof.Region1.lean ====
/-
  Region 1 (finish layer 0, rescale, multiply by the joined weights). Every grid point t loads rows
  [2000 t, 2000 t + 2000) of the aggregate a and of the two norm columns, the bias row b and the whole of w, and
  stores the block (max(a ⊙ s_in + b, 0) ⊙ s_out) · w; the fifty blocks tile the 100000 rows.
-/
import proofs.«418309_j64063732187138_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Entry (n, j): the sum over k of (max(a[n, k] · s_in[n] + b[k], 0) · s_out[n]) · w[k, j]. -/
def fusedProd (a : S100000x128.Idx → EReal) (sin : S100000x1.Idx → EReal) (b : S1x128.Idx → EReal)
    (sout : S100000x1.Idx → EReal) (w : S128x128.Idx → EReal) : S100000x128.Idx → EReal :=
  fun i => ∑ k : Fin 128, (max (a (ix2 (i 0) k) * sin (ix2 (i 0) 0) + b (ix2 0 k)) 0 * sout (ix2 (i 0) 0)) * w (ix2 k (i 1))

/-! ## The body's arithmetic at an entry of the block -/

/-- A column [a, 1] broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at output (i 0, i 1) and contraction coordinate q is (i 0, q): axis 0, -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- axis 1; -/
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- its right operand index is (q, i 1): axis 0, -/
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- axis 1. -/
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into the zero accumulator, entry (p, q): the sum over k of l[p, k] · r[k, q]. -/
theorem blockProd_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's arithmetic at entry (p, q) of the block, from the five loaded blocks: the same-shape casts and the two
    format changes are identities, the columns and the bias row are read at their one column and one row, the zero word is 0. -/
theorem pay_apply (x0 : Vec Ideal S2000x128 .f32) (x1 : Vec Ideal S2000x1 .f32) (x2 : Vec Ideal S1x128 .f32)
    (x3 : Vec Ideal S2000x1 .f32) (x4 : Vec Ideal S128x128 .f32) (p : Fin 2000) (q : Fin 128) :
    k1_pay1 x0 x1 x2 x3 x4 (ix2 p q)
      = ∑ k : Fin 128, (max (x0 (ix2 p k) * x1 (ix2 p (0 : Fin 1)) + x2 (ix2 (0 : Fin 1) k)) 0 * x3 (ix2 p (0 : Fin 1))) * x4 (ix2 k q) := by
  unfold k1_pay1
  simp only [shapeCast_self]
  rw [blockProd_apply]
  refine Finset.sum_congr rfl fun k _ => ?_
  rw [truncf_apply, truncf_apply, mulf_apply, maximumf_apply, addf_apply, mulf_apply, broadcast_apply,
    broadcastTo_a1_ab_apply, broadcastTo_a1_ab_apply, broadcastTo_1b_ab_apply]
  show max _ (Ideal.ofBits .f32 0x00000000#32) * _ * _ = _
  rw [Ideal.ofBits_zero_f32]

/-! ## Each block as rows of its array -/

theorem hz : (![0, 0] : Fin 2 → Nat) = fun _ => 0 := funext fun a => by fin_cases a <;> rfl

/-- The printed index maps, decided over the fifty points: the row-blocked windows are at block (t, 0), the bias row and
    the weights at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the aggregate is row 2000 t + p of the array. -/
theorem aBlk_apply (c : Dev nD) (t : Fin cfg1.N) (p : Fin 2000) (k : Fin 128) (r : Fin 100000)
    (hr : r.val = t.val * 2000 + p.val) :
    (iblk1 (F := Ideal) V c 0 t : Vec Ideal S2000x128 .f32) (ix2 p k) = (V c main_v19 : Vec Ideal S100000x128 .f32) (ix2 r k) := by
  obtain ⟨e0, e1, -⟩ := idx_facts t
  unfold iblk1
  rw [View.read_apply]
  show V c main_v19 _ = V c main_v19 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row p of point t's block of the incoming norm column is row 2000 t + p of the column. -/
theorem sinBlk_apply (c : Dev nD) (t : Fin cfg1.N) (p : Fin 2000) (r : Fin 100000)
    (hr : r.val = t.val * 2000 + p.val) :
    (iblk1 (F := Ideal) V c 1 t : Vec Ideal S2000x1 .f32) (ix2 p (0 : Fin 1)) = (V c main_v21 : Vec Ideal S100000x1 .f32) (ix2 r (0 : Fin 1)) := by
  obtain ⟨-, -, e0, e1, -⟩ := idx_facts t
  unfold iblk1
  rw [View.read_apply]
  show V c main_v21 _ = V c main_v21 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Every point's block of the bias row is the row. -/
theorem bBlk_apply (c : Dev nD) (t : Fin cfg1.N) (k : Fin 128) :
    (iblk1 (F := Ideal) V c 2 t : Vec Ideal S1x128 .f32) (ix2 (0 : Fin 1) k) = (V c main_v23 : Vec Ideal S1x128 .f32) (ix2 (0 : Fin 1) k) := by
  obtain ⟨-, -, -, -, e0, e1, -⟩ := idx_facts t
  unfold iblk1
  rw [View.read_apply]
  show V c main_v23 _ = V c main_v23 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- Row p of point t's block of the outgoing norm column is row 2000 t + p of the column. -/
theorem soutBlk_apply (c : Dev nD) (t : Fin cfg1.N) (p : Fin 2000) (r : Fin 100000)
    (hr : r.val = t.val * 2000 + p.val) :
    (iblk1 (F := Ideal) V c 3 t : Vec Ideal S2000x1 .f32) (ix2 p (0 : Fin 1)) = (V c main_v22 : Vec Ideal S100000x1 .f32) (ix2 r (0 : Fin 1)) := by
  obtain ⟨-, -, -, -, -, -, e0, e1, -⟩ := idx_facts t
  unfold iblk1
  rw [View.read_apply]
  show V c main_v22 _ = V c main_v22 _
  congr 1
  funext a
  apply Fin.ext
  match a with
  | ⟨0, _⟩ => show win1_3.index t (0 : Fin 2) * 2000 + 1 * p.val = r.val; rw [e0, hr]; omega
  | ⟨1, _⟩ => show win1_3.index t (1 : Fin 2) * 1 + 1 * 0 = 0; rw [e1]

/-- Every point's block of the weights is the whole matrix. -/
theorem wBlk_apply (c : Dev nD) (t : Fin cfg1.N) (k : Fin 128) (q : Fin 128) :
    (iblk1 (F := Ideal) V c 4 t : Vec Ideal S128x128 .f32) (ix2 k q) = (V c main_v20 : Vec Ideal S128x128 .f32) (ix2 k q) := by
  obtain ⟨-, -, -, -, -, -, -, -, e0, e1, -⟩ := idx_facts t
  unfold iblk1
  rw [View.read_apply]
  show V c main_v20 _ = V c main_v20 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- Entry (p, q) of point t's output block sits at (2000 t + p, q) of the output array. -/
theorem outBlk_emb (t : Fin cfg1.N) (p : Fin 2000) (q : Fin 128) (r : Fin 100000)
    (hr : r.val = t.val * 2000 + p.val) :
    (((cfg1.win 5).blk t).view.emb (ix2 p q) : S100000x128.Idx) = ix2 r q := by
  obtain ⟨-, -, -, -, -, -, -, -, -, -, e0, e1⟩ := idx_facts t
  funext a
  apply Fin.ext
  match a with
  | ⟨0, _⟩ => show win1_5.index t (0 : Fin 2) * 2000 + 1 * p.val = r.val; rw [e0, hr]; omega
  | ⟨1, _⟩ => show win1_5.index t (1 : Fin 2) * 128 + 1 * q.val = q.val; rw [e1]; omega

/-! ## What a point writes back, and the array after the fifty points -/

/-- Point t writes back block t of `fusedProd` of the arrays as the region finds them. -/
theorem flushed_eq (c : Dev nD) (t : Fin cfg1.N) :
    (dat1 (F := Ideal) V c).flushed 5 t
      = ((cfg1.win 5).blk t).view.read (Elt Ideal) (fusedProd (V c main_v19) (V c main_v21) (V c main_v23) (V c main_v22) (V c main_v20)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz,
    View.ld_unit_zero (S := S128x128) hz]
  funext j
  obtain ⟨p, q, rfl⟩ : ∃ (p : Fin 2000) (q : Fin 128), (j : S2000x128.Idx) = ix2 p q :=
    ⟨j 0, j 1, eq_ix2 (n0 := 2000) (n1 := 128) j⟩
  have ht : t.val < 50 := lt_of_lt_of_eq t.isLt N_1
  have hlt : t.val * 2000 + p.val < 100000 := by have := p.isLt; omega
  show k1_pay1 (iblk1 V c 0 t) (iblk1 V c 1 t) (iblk1 V c 2 t) (iblk1 V c 3 t) (iblk1 V c 4 t) (ix2 p q)
    = fusedProd (V c main_v19) (V c main_v21) (V c main_v23) (V c main_v22) (V c main_v20) (((cfg1.win 5).blk t).view.emb (ix2 p q))
  rw [outBlk_emb t p q ⟨_, hlt⟩ rfl]
  refine (pay_apply (iblk1 V c 0 t) (iblk1 V c 1 t) (iblk1 V c 2 t) (iblk1 V c 3 t) (iblk1 V c 4 t) p q).trans ?_
  unfold fusedProd
  refine Finset.sum_congr rfl fun k _ => ?_
  rw [aBlk_apply V c t p k ⟨_, hlt⟩ rfl, sinBlk_apply V c t p ⟨_, hlt⟩ rfl, bBlk_apply V c t k,
    soutBlk_apply V c t p ⟨_, hlt⟩ rfl, wBlk_apply V c t k q]

/-- An index of the output array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v24).slice (win1_5.rect t)).set ↔ _
  rw [View.set_slice_whole, Rect.mem_set_unit]
  exact Iff.rfl

/-- The fifty blocks tile the rows: row n is in the block of point n / 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 2000 < cfg1.N := lt_of_lt_of_eq (show (i 0).val / 2000 < 50 by omega) N_1.symm
  refine ⟨⟨(i 0).val / 2000, hlt⟩, flush1_5 _, ?_⟩
  rw [mem_blk]
  obtain ⟨-, -, -, -, -, -, -, -, -, -, e0, e1⟩ := idx_facts ⟨(i 0).val / 2000, hlt⟩
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    rw [e1]
    omega

/-- The output array of region 1 after its fifty points, as a function of the arrays the region is entered with. -/
theorem final1 (c : Dev nD) :
    (dat1 (F := Ideal) V c).arrAt 5 cfg1.N
      = fusedProd (V c main_v19) (V c main_v21) (V c main_v23) (V c main_v22) (V c main_v20) :=
  (dat1 (F := Ideal) V c).arrAt_eq_of_cover 5 _ (fun t _ => flushed_eq V c t) cover

end Cert.KernelIdeal.Region1

end
-- ==== Proof.Region2.lean ====
/-
  Region 2 (finish layers 1 and 2, sample). Every grid point t loads rows [2000 t, 2000 t + 2000) of the
  128-wide aggregate a, of the norm column s and of the noise z, and the bias row b, and stores the block
  (a[:, :64] ⊙ s + b[:64]) + z ⊙ exp(a[:, 64:] ⊙ s + b[64:]); the fifty blocks tile the 100000 rows.
-/
import proofs.«418309_j64063732187138_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Column j of the left half of a 128-wide row. -/
abbrev lo (j : Fin 64) : Fin 128 := ⟨j.val, by omega⟩
/-- Column j of the right half of a 128-wide row. -/
abbrev hi (j : Fin 64) : Fin 128 := ⟨64 + j.val, by omega⟩

/-- Entry (n, j): (a[n, j] · s[n] + b[j]) + z[n, j] · exp(a[n, 64 + j] · s[n] + b[64 + j]). -/
def sampled (a : S100000x128.Idx → EReal) (s : S100000x1.Idx → EReal) (b : S1x128.Idx → EReal)
    (z : S100000x64.Idx → EReal) : S100000x64.Idx → EReal :=
  fun i => (a (ix2 (i 0) (lo (i 1))) * s (ix2 (i 0) 0) + b (ix2 0 (lo (i 1))))
    + z (ix2 (i 0) (i 1)) * Ideal.exp (a (ix2 (i 0) (hi (i 1))) * s (ix2 (i 0) 0) + b (ix2 0 (hi (i 1))))

/-- The left half of a row block: column q of the slice is column q of the block. -/
theorem sliceLo_apply (x : FVec Ideal S2000x128 .f32) (p : Fin 2000) (q : Fin 64) :
    extractStridedSlice S2000x64 ![0, 0] x slices_S2000x128_o0_0_S2000x64 (ix2 p q) = x (ix2 p (lo q)) :=
  extractStridedSlice_apply _ _ _ _ _ fun a => by
    match a with
    | ⟨0, _⟩ => show p.val = 0 + p.val; omega
    | ⟨1, _⟩ => show q.val = 0 + q.val; omega

/-- The right half of a row block: column q of the slice is column 64 + q of the block. -/
theorem sliceHi_apply (x : FVec Ideal S2000x128 .f32) (p : Fin 2000) (q : Fin 64) :
    extractStridedSlice S2000x64 ![0, 64] x slices_S2000x128_o0_64_S2000x64 (ix2 p q) = x (ix2 p (hi q)) :=
  extractStridedSlice_apply _ _ _ _ _ fun a => by
    match a with
    | ⟨0, _⟩ => show p.val = 0 + p.val; omega
    | ⟨1, _⟩ => rfl

/-- The left half of the bias row. -/
theorem biasLo_apply (x : FVec Ideal S1x128 .f32) (q : Fin 64) :
    extractStridedSlice S1x64 ![0, 0] x slices_S1x128_o0_0_S1x64 (ix2 0 q) = x (ix2 0 (lo q)) :=
  extractStridedSlice_apply _ _ _ _ _ fun a => by
    match a with
    | ⟨0, _⟩ => rfl
    | ⟨1, _⟩ => show q.val = 0 + q.val; omega

/-- The right half of the bias row. -/
theorem biasHi_apply (x : FVec Ideal S1x128 .f32) (q : Fin 64) :
    extractStridedSlice S1x64 ![0, 64] x slices_S1x128_o0_64_S1x64 (ix2 0 q) = x (ix2 0 (hi q)) :=
  extractStridedSlice_apply _ _ _ _ _ fun a => by
    match a with
    | ⟨0, _⟩ => rfl
    | ⟨1, _⟩ => rfl

/-- A column spread over 64 columns reads its row's entry. -/
theorem colBroadcast_apply (x : FVec Ideal S2000x1 .f32) (p : Fin 2000) (q : Fin 64) :
    broadcastTo S2000x64 x broadcasts_S2000x1_S2000x64 (ix2 p q) = x (ix2 p 0) :=
  broadcastTo_apply _ _ _ _ fun a => by
    match a with
    | ⟨0, _⟩ => rfl
    | ⟨1, _⟩ => rfl

/-- A row spread over 2000 rows reads its column's entry. -/
theorem rowBroadcast_apply (x : FVec Ideal S1x64 .f32) (p : Fin 2000) (q : Fin 64) :
    broadcastTo S2000x64 x broadcasts_S1x64_S2000x64 (ix2 p q) = x (ix2 0 q) :=
  broadcastTo_apply _ _ _ _ fun a => by
    match a with
    | ⟨0, _⟩ => rfl
    | ⟨1, _⟩ => rfl

/-- The exponential of a vector at an index is the extended reals' exponential of the entry. -/
theorem exp_at {s : Shape} {φ : FTy} (v : FVec Ideal s φ) (i : s.Idx) : exp v i = Ideal.exp (v i) := rfl

/-- The body's arithmetic at row p, column q of its blocks: (a[p, q] · s[p] + b[q]) + z[p, q] · exp(a[p, 64 + q] · s[p] + b[64 + q]). -/
theorem pay_apply (x0 : Vec Ideal S2000x128 .f32) (x1 : Vec Ideal S2000x1 .f32) (x2 : Vec Ideal S1x128 .f32)
    (x3 : Vec Ideal S2000x64 .f32) (p : Fin 2000) (q : Fin 64) :
    (k2_pay1 (F := Ideal) x0 x1 x2 x3) (ix2 p q)
      = (x0 (ix2 p (lo q)) * x1 (ix2 p 0) + x2 (ix2 0 (lo q)))
        + x3 (ix2 p q) * Ideal.exp (x0 (ix2 p (hi q)) * x1 (ix2 p 0) + x2 (ix2 0 (hi q))) := by
  unfold k2_pay1
  simp only [shapeCast_self, addf_apply, mulf_apply, exp_at, sliceLo_apply, sliceHi_apply, colBroadcast_apply,
    rowBroadcast_apply, biasLo_apply, biasHi_apply]

/-- The zero offsets of a whole-block access. -/
theorem hz : (![0, 0] : Fin 2 → Nat) = fun _ => 0 := funext fun a => by fin_cases a <;> rfl

/-- The region has fifty points. -/
theorem t_lt (t : Fin cfg2.N) : t.val < 50 := lt_of_lt_of_eq t.isLt N_2

/-- The block index maps over the fifty points: the row blocks of a, s, z and of the output are numbered by the point,
    the bias row is always block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of point t's block of a is row 2000 t + p of a. -/
theorem ablk_apply (c : Dev nD) (t : Fin cfg2.N) (p : Fin 2000) (q : Fin 128) (r : Fin 100000)
    (hr : r.val = 2000 * t.val + p.val) :
    (iblk2 V c 0 t : Vec Ideal S2000x128 .f32) (ix2 p q) = (V c main_v28 : S100000x128.Idx → EReal) (ix2 r q) := by
  obtain ⟨e0, e1, -⟩ := idx_facts t
  unfold iblk2
  rw [View.read_apply]
  show V c main_v28 _ = V c main_v28 _
  refine congrArg _ ?_
  funext a; apply Fin.ext
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- Row p of point t's block of s is row 2000 t + p of s. -/
theorem sblk_apply (c : Dev nD) (t : Fin cfg2.N) (p : Fin 2000) (r : Fin 100000)
    (hr : r.val = 2000 * t.val + p.val) :
    (iblk2 V c 1 t : Vec Ideal S2000x1 .f32) (ix2 p 0) = (V c main_v30 : S100000x1.Idx → EReal) (ix2 r 0) := by
  obtain ⟨-, -, e0, e1, -⟩ := idx_facts t
  unfold iblk2
  rw [View.read_apply]
  show V c main_v30 _ = V c main_v30 _
  refine congrArg _ ?_
  funext a; apply Fin.ext
  match a with
  | ⟨0, _⟩ => show win2_1.index t (0 : Fin 2) * 2000 + 1 * p.val = r.val; rw [e0, hr]; omega
  | ⟨1, _⟩ => show win2_1.index t (1 : Fin 2) * 1 + 1 * 0 = 0; rw [e1]

/-- Every point's block of b is b. -/
theorem bblk_apply (c : Dev nD) (t : Fin cfg2.N) (q : Fin 128) :
    (iblk2 V c 2 t : Vec Ideal S1x128 .f32) (ix2 0 q) = (V c main_v31 : S1x128.Idx → EReal) (ix2 0 q) := by
  obtain ⟨-, -, -, -, e0, e1, -⟩ := idx_facts t
  unfold iblk2
  rw [View.read_apply]
  show V c main_v31 _ = V c main_v31 _
  refine congrArg _ ?_
  funext a; apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- Row p of point t's block of z is row 2000 t + p of z. -/
theorem zblk_apply (c : Dev nD) (t : Fin cfg2.N) (p : Fin 2000) (q : Fin 64) (r : Fin 100000)
    (hr : r.val = 2000 * t.val + p.val) :
    (iblk2 V c 3 t : Vec Ideal S2000x64 .f32) (ix2 p q) = (V c main_arg3 : S100000x64.Idx → EReal) (ix2 r q) := by
  obtain ⟨-, -, -, -, -, -, e0, e1, -⟩ := idx_facts t
  unfold iblk2
  rw [View.read_apply]
  show V c main_arg3 _ = V c main_arg3 _
  refine congrArg _ ?_
  funext a; apply Fin.ext
  match a with
  | ⟨0, _⟩ => show win2_3.index t (0 : Fin 2) * 2000 + 1 * p.val = r.val; rw [e0, hr]; omega
  | ⟨1, _⟩ => show win2_3.index t (1 : Fin 2) * 64 + 1 * q.val = q.val; rw [e1]; omega

/-- What point t computes at row p, column q of its block is entry (2000 t + p, q) of the sampled array. -/
theorem point_apply (c : Dev nD) (t : Fin cfg2.N) (p : Fin 2000) (q : Fin 64) (r : Fin 100000)
    (hr : r.val = 2000 * t.val + p.val) :
    k2_pay1 (F := Ideal) (iblk2 V c 0 t) (iblk2 V c 1 t) (iblk2 V c 2 t) (iblk2 V c 3 t) (ix2 p q)
      = sampled (V c main_v28) (V c main_v30) (V c main_v31) (V c main_arg3) (ix2 r q) := by
  refine (pay_apply (iblk2 V c 0 t) (iblk2 V c 1 t) (iblk2 V c 2 t) (iblk2 V c 3 t) p q).trans ?_
  rw [ablk_apply V c t p (lo q) r hr, ablk_apply V c t p (hi q) r hr, sblk_apply V c t p r hr, bblk_apply V c t (lo q),
    bblk_apply V c t (hi q), zblk_apply V c t p q r hr]
  rfl

/-- What point t writes back is block t of the sampled array. -/
theorem flushed_eq (c : Dev nD) (t : Fin cfg2.N) :
    (dat2 (F := Ideal) V c).flushed 4 t
      = ((cfg2.win 4).blk t).view.read (Elt Ideal) (sampled (V c main_v28) (V c main_v30) (V c main_v31) (V c main_arg3)) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S1x128) hz,
    View.ld_unit_zero (S := S2000x64) hz]
  funext j
  have ht : t.val < 50 := t_lt t
  have hp : (j 0).val < 2000 := (j 0).isLt
  have hq : (j 1).val < 64 := (j 1).isLt
  obtain ⟨-, -, -, -, -, -, -, -, e0, e1⟩ := idx_facts t
  have hx : (cfg2.win 4).xinj (grid2.coords t) j = ix2 (⟨(j 0).val, hp⟩ : Fin 2000) (⟨(j 1).val, hq⟩ : Fin 64) := eq_ix2 _
  have hy : ((cfg2.win 4).blk t).view.emb j
      = ix2 (⟨2000 * t.val + (j 0).val, by omega⟩ : Fin 100000) (⟨(j 1).val, hq⟩ : Fin 64) := by
    funext a; apply Fin.ext
    match a with
    | ⟨0, _⟩ => show win2_4.index t (0 : Fin 2) * 2000 + 1 * (j 0).val = 2000 * t.val + (j 0).val; rw [e0]; omega
    | ⟨1, _⟩ => show win2_4.index t (1 : Fin 2) * 64 + 1 * (j 1).val = (j 1).val; rw [e1]; omega
  show k2_pay1 (F := Ideal) (iblk2 V c 0 t) (iblk2 V c 1 t) (iblk2 V c 2 t) (iblk2 V c 3 t) ((cfg2.win 4).xinj (grid2.coords t) j)
    = sampled (V c main_v28) (V c main_v30) (V c main_v31) (V c main_arg3) (((cfg2.win 4).blk t).view.emb j)
  rw [hx, hy]
  exact point_apply V c t _ _ _ rfl

/-- An index of the output array is in point t's block iff each coordinate is in the block's range on its axis. -/
theorem mem_blk (t : Fin cfg2.N) (i : S100000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v32).slice (win2_4.rect t)).set ↔ _
  rw [View.set_slice_whole, Rect.mem_set_unit]
  exact Iff.rfl

/-- Row r of the output lies in the block of point r / 2000, and every point writes its block back. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx_facts t
  refine ⟨t, flush2_4 t, ?_⟩
  rw [mem_blk]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 64 ≤ (i 1).val ∧ (i 1).val < win2_4.index t (1 : Fin 2) * 64 + 64
    rw [e1]; omega

/-- The output array of region 2 after its fifty points, as a function of the arrays the region is entered with. -/
theorem final2 (c : Dev nD) :
    (dat2 (F := Ideal) V c).arrAt 4 cfg2.N = sampled (V c main_v28) (V c main_v30) (V c main_v31) (V c main_arg3) :=
  (dat2 (F := Ideal) V c).arrAt_eq_of_cover 4 _ (fun t _ => flushed_eq V c t) cover

end Cert.KernelIdeal.Region2

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.Cols.lean ====
/-
  A row gather followed by a row scatter-add acts on every column by itself: entry (n, j) of
  scatter-add(x, dst, gather(H, src)) is x[n, j] plus the sum, over the edges e whose target dst[e] is n, of
  H[clamp(src[e]), j]. So the left (right) 64 columns of the 128-wide pass over an array whose left (right) half
  is H₁ (H₂) are the 64-wide pass over H₁ (H₂).

  The entry formula is proved once for an operand [N, W], edge indices [E, 1] and updates [E, W]: an update index
  (e, q) lands at row dst[e] (read signed, not clamped), column q, or nowhere when dst[e] is not a row; the gather
  reads row min(src[e], N - 1) (src[e] read signed, negative ones at row 0), column q.
-/
import proofs.«418309_j64063732187138_2_alg».proof.KernelIdeal
import proofs.«418309_j64063732187138_2_alg».proof.ReferenceIdeal
import proofs.«418309_j64063732187138_2_alg».proof.Proof.Gen.KernelIdeal
import proofs.«418309_j64063732187138_2_alg».proof.Proof.Gen.ReferenceIdeal
import proofs.«418309_j64063732187138_2_alg».proof.Proof.LibRowGatherScatter
import Idealize.ShloMosaic.Lib.ValueIdx
import Idealize.ShloMosaic.PureOps.Ideal.Laws

noncomputable section

namespace Cert.Cols

open Idealize.ShloMosaic Idealize.ShloMosaic.ValueIdx Cert.Lib.RowPass

/-- Column j of the left half of a 128-wide row. -/
abbrev lo (j : Fin 64) : Fin 128 := ⟨j.val, by omega⟩
/-- Column j of the right half of a 128-wide row. -/
abbrev hi (j : Fin 64) : Fin 128 := ⟨64 + j.val, by omega⟩

/-- The two programs' dimension numbers of the 128-wide row scatter, of the 128-wide row gather and of the degree
    scatter are the same records. -/
theorem scatter128_eq : Cert.KernelIdeal.scatter_S100000x128_S1600000x1_S1600000x128_1_0_0_1
    = Cert.ReferenceIdeal.scatter_S100000x128_S1600000x1_S1600000x128_1_0_0_1 := rfl
theorem gather128_eq : Cert.KernelIdeal.gather_S100000x128_S1600000x1_S1600000x128_1_0_n_n_0_1_1128
    = Cert.ReferenceIdeal.gather_S100000x128_S1600000x1_S1600000x128_1_0_n_n_0_1_1128 := rfl
theorem scatter1_eq : Cert.KernelIdeal.scatter_S100000_S1600000x1_S1600000_n_0_0_1
    = Cert.ReferenceIdeal.scatter_S100000_S1600000x1_S1600000_n_0_0_1 := rfl

/-- The four records of the two passes are the row scatter's and the row gather's dimension numbers at widths 128
    and 64. -/
theorem scatter128_is : Cert.ReferenceIdeal.scatter_S100000x128_S1600000x1_S1600000x128_1_0_0_1
    = scD 100000 1600000 128 Cert.ReferenceIdeal.Facts₀.scatter_S100000x128_S1600000x1_S1600000x128_1_0_0_1_wf := rfl
theorem gather128_is : Cert.ReferenceIdeal.gather_S100000x128_S1600000x1_S1600000x128_1_0_n_n_0_1_1128
    = gaD 100000 1600000 128 Cert.ReferenceIdeal.Facts₀.gather_S100000x128_S1600000x1_S1600000x128_1_0_n_n_0_1_1128_wf := rfl
theorem scatter64_is : Cert.ReferenceIdeal.scatter_S100000x64_S1600000x1_S1600000x64_1_0_0_1
    = scD 100000 1600000 64 Cert.ReferenceIdeal.Facts₀.scatter_S100000x64_S1600000x1_S1600000x64_1_0_0_1_wf := rfl
theorem gather64_is : Cert.ReferenceIdeal.gather_S100000x64_S1600000x1_S1600000x64_1_0_n_n_0_1_164
    = gaD 100000 1600000 64 Cert.ReferenceIdeal.Facts₀.gather_S100000x64_S1600000x1_S1600000x64_1_0_n_n_0_1_164_wf := rfl

/-- The left 64 columns of the 128-wide gather-then-scatter-add are the 64-wide one over the left half. -/
theorem colsplit_lo (H12 : Cert.ReferenceIdeal.S100000x128.Idx → EReal) (H1 : Cert.ReferenceIdeal.S100000x64.Idx → EReal)
    (x128 : Cert.ReferenceIdeal.S100000x128.Idx → EReal) (x64 : Cert.ReferenceIdeal.S100000x64.Idx → EReal)
    (idxd idxs : IVec Cert.ReferenceIdeal.S1600000x1 32)
    (hH : ∀ (r : Fin 100000) (j : Fin 64), H12 (ix2 r (lo j)) = H1 (ix2 r j))
    (hx : ∀ (r : Fin 100000) (j : Fin 64), x128 (ix2 r (lo j)) = x64 (ix2 r j))
    (n : Fin 100000) (j : Fin 64) :
    Host.scatterAdd (F := Ideal) (φ := .f32) Cert.ReferenceIdeal.scatter_S100000x128_S1600000x1_S1600000x128_1_0_0_1 x128 idxd
        (Host.gather Cert.ReferenceIdeal.gather_S100000x128_S1600000x1_S1600000x128_1_0_n_n_0_1_1128 H12 idxs) (ix2 n (lo j))
      = Host.scatterAdd (F := Ideal) (φ := .f32) Cert.ReferenceIdeal.scatter_S100000x64_S1600000x1_S1600000x64_1_0_0_1 x64 idxd
        (Host.gather Cert.ReferenceIdeal.gather_S100000x64_S1600000x1_S1600000x64_1_0_n_n_0_1_164 H1 idxs) (ix2 n j) := by
  rw [scatter128_is, gather128_is, scatter64_is, gather64_is]
  show Ideal.hostScatterAdd _ x128 idxd (Host.gather _ H12 idxs) (ix2 n (lo j))
    = Ideal.hostScatterAdd _ x64 idxd (Host.gather _ H1 idxs) (ix2 n j)
  rw [pass_apply _ _ (by norm_num), pass_apply _ _ (by norm_num), hx]
  refine congrArg (fun s => x64 (ix2 n j) + s) (Finset.sum_congr rfl fun e _ => ?_)
  rw [hH]

/-- The right 64 columns of the 128-wide gather-then-scatter-add are the 64-wide one over the right half. -/
theorem colsplit_hi (H12 : Cert.ReferenceIdeal.S100000x128.Idx → EReal) (H2 : Cert.ReferenceIdeal.S100000x64.Idx → EReal)
    (x128 : Cert.ReferenceIdeal.S100000x128.Idx → EReal) (x64 : Cert.ReferenceIdeal.S100000x64.Idx → EReal)
    (idxd idxs : IVec Cert.ReferenceIdeal.S1600000x1 32)
    (hH : ∀ (r : Fin 100000) (j : Fin 64), H12 (ix2 r (hi j)) = H2 (ix2 r j))
    (hx : ∀ (r : Fin 100000) (j : Fin 64), x128 (ix2 r (hi j)) = x64 (ix2 r j))
    (n : Fin 100000) (j : Fin 64) :
    Host.scatterAdd (F := Ideal) (φ := .f32) Cert.ReferenceIdeal.scatter_S100000x128_S1600000x1_S1600000x128_1_0_0_1 x128 idxd
        (Host.gather Cert.ReferenceIdeal.gather_S100000x128_S1600000x1_S1600000x128_1_0_n_n_0_1_1128 H12 idxs) (ix2 n (hi j))
      = Host.scatterAdd (F := Ideal) (φ := .f32) Cert.ReferenceIdeal.scatter_S100000x64_S1600000x1_S1600000x64_1_0_0_1 x64 idxd
        (Host.gather Cert.ReferenceIdeal.gather_S100000x64_S1600000x1_S1600000x64_1_0_n_n_0_1_164 H2 idxs) (ix2 n j) := by
  rw [scatter128_is, gather128_is, scatter64_is, gather64_is]
  show Ideal.hostScatterAdd _ x128 idxd (Host.gather _ H12 idxs) (ix2 n (hi j))
    = Ideal.hostScatterAdd _ x64 idxd (Host.gather _ H2 idxs) (ix2 n j)
  rw [pass_apply _ _ (by norm_num), pass_apply _ _ (by norm_num), hx]
  refine congrArg (fun s => x64 (ix2 n j) + s) (Finset.sum_congr rfl fun e _ => ?_)
  rw [hH]

end Cert.Cols

end
-- ==== Proof.PreSrc.lean ====
/-
  What the precondition says of the edge sources: every entry of src is a non-negative 32-bit integer. On such an
  entry the reference's normalisation of a negative index (src < 0 ? src + 100000 : src) is the identity.
-/
import proofs.«418309_j64063732187138_2_alg».proof.Pre_finite_inputs
import proofs.«418309_j64063732187138_2_alg».proof.Proof.Gen.Pre_finite_inputs
import proofs.«418309_j64063732187138_2_alg».proof.Proof.Gen.ReferenceIdeal.Read
import Idealize.ShloMosaic.Lib.ReduceAll
import Idealize.ShloMosaic.Lib.StableHlo.Predicate
import Idealize.ShloMosaic.Lib.ValueIdx

noncomputable section

namespace Cert.PreSrc

open Idealize.ShloMosaic Idealize.ShloMosaic.ValueIdx

/-- Under the precondition every source index is non-negative as a signed 32-bit integer. -/
theorem src_nonneg
    (a0 : FVec Ideal Cert.Pre_finite_inputs.S100000x256 .f32) (a1 a2 : IVec Cert.Pre_finite_inputs.S1600000 32)
    (a3 : FVec Ideal Cert.Pre_finite_inputs.S100000x64 .f32) (a4 : FVec Ideal Cert.Pre_finite_inputs.S256x128 .f32)
    (a5 : FVec Ideal Cert.Pre_finite_inputs.S128 .f32) (a6 : FVec Ideal Cert.Pre_finite_inputs.S128x64 .f32)
    (a7 : FVec Ideal Cert.Pre_finite_inputs.S64 .f32) (a8 : FVec Ideal Cert.Pre_finite_inputs.S128x64 .f32)
    (a9 : FVec Ideal Cert.Pre_finite_inputs.S64 .f32)
    (h : Cert.Pre_finite_inputs.fn (F := Ideal) a0 a1 a2 a3 a4 a5 a6 a7 a8 a9 = fun _ => 1#1)
    (e : Cert.Pre_finite_inputs.S1600000.Idx) : 0 ≤ (a1 e).toInt := by
  -- the precondition at its one index: a conjunction whose last conjunct is the all-reduction of (src ≥ 0)
  have h0 := congrFun h ValueIdx.ix0
  unfold Cert.Pre_finite_inputs.fn Cert.Pre_finite_inputs.fn_part1 Cert.Pre_finite_inputs.fn_part2 at h0
  -- a one-bit `and` is 1 only if both operands are: keep the last conjunct
  have h1 := (IntOp.andi_eq_one.1 h0).2
  haveI : Subsingleton Cert.Pre_finite_inputs.S_.Idx := ⟨fun a b => funext fun d => d.elim0⟩
  -- an `and`-reduction over every axis that is 1 met a 1 at every entry: the signed compare src e ≥ 0 holds
  have h2 := Host.reduce_andi_all _ _ _ _ _ h1 e
  have h3 : (0#32 : BitVec 32).toInt ≤ (a1 e).toInt := IntOp.cmpi_sge.1 h2
  simpa using h3

/-- On non-negative sources the reference's three copies of the negative-index normalisation return the sources. -/
theorem normalise_id (a1 : IVec Cert.ReferenceIdeal.S1600000 32) (h : ∀ e, 0 ≤ (a1 e).toInt) :
    Cert.ReferenceIdeal.Read.val_main_v22 (F := Ideal) a1 = a1
    ∧ Cert.ReferenceIdeal.Read.val_main_v57 (F := Ideal) a1 = a1
    ∧ Cert.ReferenceIdeal.Read.val_main_v91 (F := Ideal) a1 = a1 := by
  -- on a non-negative entry the signed compare src e < 0 is the bit 0
  have key : ∀ e, IntOp.cmpi .slt (a1 e) 0#32 = 0#1 := fun e =>
    eq_zero_of_ne_one (fun hc => by
      have h1 := IntOp.cmpi_slt.1 hc
      have h0 : (0#32 : BitVec 32).toInt = 0 := by decide
      have h2 := h e
      omega)
  -- each copy, read at an entry, is a select on that bit between src e + 100000 and src e: it returns src e
  refine ⟨funext fun e => ?_, funext fun e => ?_, funext fun e => ?_⟩
  · rw [Cert.ReferenceIdeal.Read.val_main_v22_apply, Cert.ReferenceIdeal.Read.val_main_v19_apply,
      Cert.ReferenceIdeal.Read.val_main_v18_apply, Cert.ReferenceIdeal.Read.val_main_c_apply, key e, select_zero]
  · rw [Cert.ReferenceIdeal.Read.val_main_v57_apply, Cert.ReferenceIdeal.Read.val_main_v54_apply,
      Cert.ReferenceIdeal.Read.val_main_v53_apply, Cert.ReferenceIdeal.Read.val_main_c_13_apply, key e, select_zero]
  · rw [Cert.ReferenceIdeal.Read.val_main_v91_apply, Cert.ReferenceIdeal.Read.val_main_v88_apply,
      Cert.ReferenceIdeal.Read.val_main_v87_apply, Cert.ReferenceIdeal.Read.val_main_c_22_apply, key e, select_zero]

end Cert.PreSrc

end
-- ==== Proof.RefRead.lean ====
/-
  The reference's dense stages read at an index, each over the stage below it: the two matrix products as sums over
  the contracted axis, the rectifier and the final sampling pointwise, every keep-dims broadcast of a norm or of a
  bias read at its row or column.
-/
import proofs.«418309_j64063732187138_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.RefRead

open Cert.ReferenceIdeal Cert.ReferenceIdeal.Read Idealize.ShloMosaic Idealize.ShloMosaic.ValueIdx

/-- The reference recomputes the two degree norms for every layer: the copies are one function of the indices. -/
theorem norm_src_1 (x1 : IVec S1600000 32) : val_main_v41 (F := Ideal) x1 = val_main_v6 (F := Ideal) x1 := rfl
theorem norm_src_2 (x1 : IVec S1600000 32) : val_main_v75 (F := Ideal) x1 = val_main_v6 (F := Ideal) x1 := rfl
theorem norm_dst_1 (x2 : IVec S1600000 32) : val_main_v48 (F := Ideal) x2 = val_main_v13 (F := Ideal) x2 := rfl
theorem norm_dst_2 (x2 : IVec S1600000 32) : val_main_v82 (F := Ideal) x2 = val_main_v13 (F := Ideal) x2 := rfl

/-- Layer 0's product: entry (n, j) is the sum over k of (x[n, k] · out_norm[n]) · W0[k, j]. -/
theorem ref17_apply (x0 : FVec Ideal S100000x256 .f32) (x1 : IVec S1600000 32) (x4 : FVec Ideal S256x128 .f32)
    (n : Fin 100000) (j : Fin 128) :
    val_main_v17 (F := Ideal) x0 x1 x4 (ix2 n j)
      = ∑ k : Fin 256, (x0 (ix2 n k) * val_main_v6 (F := Ideal) x1 (ix1 n)) * x4 (ix2 k j) := by
  have el : ∀ k : Fin 256, lidx_main_v17 (ix2 n j) k = ix2 n k := fun k =>
    funext fun a => by match a with | ⟨0, _⟩ => rfl | ⟨1, _⟩ => rfl
  have er : ∀ k : Fin 256, ridx_main_v17 (ix2 n j) k = ix2 k j := fun k =>
    funext fun a => by match a with | ⟨0, _⟩ => rfl | ⟨1, _⟩ => rfl
  have eb : ∀ k : Fin 256, idx_main_v14 (idx_main_v15 (ix2 n k)) = ix1 n := fun k =>
    funext fun a => by match a with | ⟨0, _⟩ => rfl
  rw [val_main_v17_apply]
  refine Finset.sum_congr rfl fun k _ => ?_
  rw [el, er, val_main_v16_apply, val_main_v15_apply, val_main_v14_apply, eb]
  rfl

/-- Layer 0's output: entry (n, k) is max(agg[n, k] · in_norm[n] + b0[k], 0). -/
theorem ref34_apply (x0 : FVec Ideal S100000x256 .f32) (x1 x2 : IVec S1600000 32) (x4 : FVec Ideal S256x128 .f32)
    (x5 : FVec Ideal S128 .f32) (n : Fin 100000) (k : Fin 128) :
    val_main_v34 (F := Ideal) x0 x1 x2 x4 x5 (ix2 n k)
      = max (val_main_v27 (F := Ideal) x0 x1 x2 x4 (ix2 n k) * val_main_v13 (F := Ideal) x2 (ix1 n) + x5 (ix1 k)) 0 := by
  have eb : idx_main_v28 (idx_main_v29 (ix2 n k)) = ix1 n := funext fun a => by match a with | ⟨0, _⟩ => rfl
  have ec : idx_main_v31 (idx_main_v32 (ix2 n k)) = ix1 k := funext fun a => by match a with | ⟨0, _⟩ => rfl
  rw [val_main_v34_apply, val_main_v33_apply, val_main_v30_apply, val_main_v29_apply, val_main_v28_apply, eb,
    val_main_v32_apply, val_main_v31_apply, ec, val_main_call0_v0_apply, val_main_call0_cst_apply]
  simp only [Ideal.maximumf_def, Ideal.addf_def, Ideal.mulf_def, Ideal.ofBits_def, Ideal.ofBits_zero_f32]

/-- Layer 1's product: entry (n, j) is the sum over k of (h[n, k] · out_norm[n]) · W1[k, j]. -/
theorem ref52_apply (x0 : FVec Ideal S100000x256 .f32) (x1 x2 : IVec S1600000 32) (x4 : FVec Ideal S256x128 .f32)
    (x5 : FVec Ideal S128 .f32) (x6 : FVec Ideal S128x64 .f32) (n : Fin 100000) (j : Fin 64) :
    val_main_v52 (F := Ideal) x0 x1 x2 x4 x5 x6 (ix2 n j)
      = ∑ k : Fin 128, (val_main_v34 (F := Ideal) x0 x1 x2 x4 x5 (ix2 n k) * val_main_v6 (F := Ideal) x1 (ix1 n)) * x6 (ix2 k j) := by
  have el : ∀ k : Fin 128, lidx_main_v52 (ix2 n j) k = ix2 n k := fun k => funext fun a => by match a with | ⟨0, _⟩ => rfl | ⟨1, _⟩ => rfl
  have er : ∀ k : Fin 128, ridx_main_v52 (ix2 n j) k = ix2 k j := fun k => funext fun a => by match a with | ⟨0, _⟩ => rfl | ⟨1, _⟩ => rfl
  have eb : ∀ k : Fin 128, idx_main_v49 (idx_main_v50 (ix2 n k)) = ix1 n := fun k => funext fun a => by match a with | ⟨0, _⟩ => rfl
  rw [val_main_v52_apply]
  refine Finset.sum_congr rfl fun k _ => ?_
  rw [el, er, val_main_v51_apply, val_main_v50_apply, val_main_v49_apply, eb, norm_src_1]
  rfl

/-- Layer 2's product: entry (n, j) is the sum over k of (h[n, k] · out_norm[n]) · W2[k, j]. -/
theorem ref86_apply (x0 : FVec Ideal S100000x256 .f32) (x1 x2 : IVec S1600000 32) (x4 : FVec Ideal S256x128 .f32)
    (x5 : FVec Ideal S128 .f32) (x8 : FVec Ideal S128x64 .f32) (n : Fin 100000) (j : Fin 64) :
    val_main_v86 (F := Ideal) x0 x1 x2 x4 x5 x8 (ix2 n j)
      = ∑ k : Fin 128, (val_main_v34 (F := Ideal) x0 x1 x2 x4 x5 (ix2 n k) * val_main_v6 (F := Ideal) x1 (ix1 n)) * x8 (ix2 k j) := by
  have el : ∀ k : Fin 128, lidx_main_v86 (ix2 n j) k = ix2 n k := fun k => funext fun a => by match a with | ⟨0, _⟩ => rfl | ⟨1, _⟩ => rfl
  have er : ∀ k : Fin 128, ridx_main_v86 (ix2 n j) k = ix2 k j := fun k => funext fun a => by match a with | ⟨0, _⟩ => rfl | ⟨1, _⟩ => rfl
  have eb : ∀ k : Fin 128, idx_main_v83 (idx_main_v84 (ix2 n k)) = ix1 n := fun k => funext fun a => by match a with | ⟨0, _⟩ => rfl
  rw [val_main_v86_apply]
  refine Finset.sum_congr rfl fun k _ => ?_
  rw [el, er, val_main_v85_apply, val_main_v84_apply, val_main_v83_apply, eb, norm_src_2]
  rfl

/-- The sampled output: entry (n, j) is (agg1[n, j] · in_norm[n] + b1[j]) + noise[n, j] · exp(agg2[n, j] · in_norm[n] + b2[j]). -/
theorem ref105_apply (x0 : FVec Ideal S100000x256 .f32) (x1 x2 : IVec S1600000 32) (x3 : FVec Ideal S100000x64 .f32)
    (x4 : FVec Ideal S256x128 .f32) (x5 : FVec Ideal S128 .f32) (x6 : FVec Ideal S128x64 .f32) (x7 : FVec Ideal S64 .f32)
    (x8 : FVec Ideal S128x64 .f32) (x9 : FVec Ideal S64 .f32) (n : Fin 100000) (j : Fin 64) :
    val_main_v105 (F := Ideal) x0 x1 x2 x3 x4 x5 x6 x7 x8 x9 (ix2 n j)
      = (val_main_v62 (F := Ideal) x0 x1 x2 x4 x5 x6 (ix2 n j) * val_main_v13 (F := Ideal) x2 (ix1 n) + x7 (ix1 j))
        + x3 (ix2 n j) * Ideal.exp (val_main_v96 (F := Ideal) x0 x1 x2 x4 x5 x8 (ix2 n j) * val_main_v13 (F := Ideal) x2 (ix1 n) + x9 (ix1 j)) := by
  have eb1 : idx_main_v63 (idx_main_v64 (ix2 n j)) = ix1 n := funext fun a => by match a with | ⟨0, _⟩ => rfl
  have ec1 : idx_main_v66 (idx_main_v67 (ix2 n j)) = ix1 j := funext fun a => by match a with | ⟨0, _⟩ => rfl
  have eb2 : idx_main_v97 (idx_main_v98 (ix2 n j)) = ix1 n := funext fun a => by match a with | ⟨0, _⟩ => rfl
  have ec2 : idx_main_v100 (idx_main_v101 (ix2 n j)) = ix1 j := funext fun a => by match a with | ⟨0, _⟩ => rfl
  rw [val_main_v105_apply, val_main_v68_apply, val_main_v65_apply, val_main_v64_apply, val_main_v63_apply, eb1, norm_dst_1,
    val_main_v67_apply, val_main_v66_apply, ec1, val_main_v104_apply, val_main_v103_apply, val_main_v102_apply,
    val_main_v99_apply, val_main_v98_apply, val_main_v97_apply, eb2, norm_dst_2, val_main_v101_apply, val_main_v100_apply, ec2]
  simp only [Ideal.addf_def, Ideal.mulf_def, Ideal.hostUnary_exp_def]

end Cert.RefRead

end
-- ==== Proof.KHost.lean ====
/-
  What the kernel program's host operations put in the arrays each region is entered with, as functions of the
  launch memory m: the degree norms reshaped to columns, the bias rows, the joined weights and biases, and the
  gather-then-scatter-add of the previous region's output.
-/
import proofs.«418309_j64063732187138_2_alg».proof.Proof.Gen.KernelIdeal.Frame
import proofs.«418309_j64063732187138_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Column j of the left half of a 128-wide row. -/
abbrev lo (j : Fin 64) : Fin 128 := ⟨j.val, by omega⟩
/-- Column j of the right half of a 128-wide row. -/
abbrev hi (j : Fin 64) : Fin 128 := ⟨64 + j.val, by omega⟩

/-- No operation of a stretch writes the buffer: each operation's written buffer is another reference. -/
local macro "not_written" "[" ops:ident "]" : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## Reading a reshape at an index -/

/-- A vector reshaped to a column reads its entry. -/
private theorem col_apply {α : Type} (y : S100000.Idx → α) (h : S100000.ShapeCasts S100000x1) (n : Fin 100000) :
    shapeCast S100000x1 y h (ix2 n 0) = y (ix1 n) := by
  refine shapeCast_apply y h (ix2 n 0) (ix1 n) ?_
  rw [Shape.rowMajor_val_one, Shape.rowMajor_val_two]
  show n.val = n.val * 1 + 0
  omega

/-- A vector reshaped to a row reads its entry. -/
private theorem row_apply {α : Type} (y : S128.Idx → α) (h : S128.ShapeCasts S1x128) (k : Fin 128) :
    shapeCast S1x128 y h (ix2 0 k) = y (ix1 k) := by
  refine shapeCast_apply y h (ix2 0 k) (ix1 k) ?_
  rw [Shape.rowMajor_val_one, Shape.rowMajor_val_two]
  show k.val = 0 * 128 + k.val
  omega

/-! ## The launch stretch: the arguments are as launched, the two norms are the reference's -/

/-- An argument no operation of the launch stretch writes is as launched. -/
private theorem W1_of_not_written (c : Dev nD) (b : Ref sig .tc)
    (h : ∀ op ∈ (hostOps0 : List (HloOp τ sig (Elt Ideal))), Proc.devRef (τ := τ) .tc b ∉ op.writes) :
    W1 (F := Ideal) m ρ c (Proc.devRef .tc b) = m ((c : Thread nD τ).loc b) :=
  StableHlo.after_of_forall_not_mem _ _ h

private theorem W1_arg1 (c : Dev nD) : W1 (F := Ideal) m ρ c (Proc.devRef .tc main_arg1) = m ((c : Thread nD τ).loc main_arg1) :=
  W1_of_not_written m ρ c main_arg1 (by not_written [hostOps0])
private theorem W1_arg2 (c : Dev nD) : W1 (F := Ideal) m ρ c (Proc.devRef .tc main_arg2) = m ((c : Thread nD τ).loc main_arg2) :=
  W1_of_not_written m ρ c main_arg2 (by not_written [hostOps0])
private theorem W1_arg3 (c : Dev nD) : W1 (F := Ideal) m ρ c (Proc.devRef .tc main_arg3) = m ((c : Thread nD τ).loc main_arg3) :=
  W1_of_not_written m ρ c main_arg3 (by not_written [hostOps0])
private theorem W1_arg5 (c : Dev nD) : W1 (F := Ideal) m ρ c (Proc.devRef .tc main_arg5) = m ((c : Thread nD τ).loc main_arg5) :=
  W1_of_not_written m ρ c main_arg5 (by not_written [hostOps0])
private theorem W1_arg6 (c : Dev nD) : W1 (F := Ideal) m ρ c (Proc.devRef .tc main_arg6) = m ((c : Thread nD τ).loc main_arg6) :=
  W1_of_not_written m ρ c main_arg6 (by not_written [hostOps0])
private theorem W1_arg7 (c : Dev nD) : W1 (F := Ideal) m ρ c (Proc.devRef .tc main_arg7) = m ((c : Thread nD τ).loc main_arg7) :=
  W1_of_not_written m ρ c main_arg7 (by not_written [hostOps0])
private theorem W1_arg8 (c : Dev nD) : W1 (F := Ideal) m ρ c (Proc.devRef .tc main_arg8) = m ((c : Thread nD τ).loc main_arg8) :=
  W1_of_not_written m ρ c main_arg8 (by not_written [hostOps0])
private theorem W1_arg9 (c : Dev nD) : W1 (F := Ideal) m ρ c (Proc.devRef .tc main_arg9) = m ((c : Thread nD τ).loc main_arg9) :=
  W1_of_not_written m ρ c main_arg9 (by not_written [hostOps0])

/-- The source-degree norm: the reciprocal square root of the degree count floored at one. -/
private theorem W1_v6 (c : Dev nD) :
    (W1 (F := Ideal) m ρ c (Proc.devRef .tc main_v6) : S100000.Idx → EReal)
      = Cert.ReferenceIdeal.Read.val_main_v6 (F := Ideal) (m ((c : Thread nD τ).loc main_arg1)) := by
  show StableHlo.after hostOps0 (W0 m ρ c) (Proc.devRef .tc main_v6) = _
  after_results
  rfl
/-- The target-degree norm. -/
private theorem W1_v13 (c : Dev nD) :
    (W1 (F := Ideal) m ρ c (Proc.devRef .tc main_v13) : S100000.Idx → EReal)
      = Cert.ReferenceIdeal.Read.val_main_v13 (F := Ideal) (m ((c : Thread nD τ).loc main_arg2)) := by
  show StableHlo.after hostOps0 (W0 m ρ c) (Proc.devRef .tc main_v13) = _
  after_results
  rfl

/-! ## Region 0's entry -/

theorem V1_arg0 (c : Dev nD) : V1 (F := Ideal) m ρ c main_arg0 = m ((c : Thread nD τ).loc main_arg0) :=
  W1_of_not_written m ρ c main_arg0 (by not_written [hostOps0])
theorem V1_arg4 (c : Dev nD) : V1 (F := Ideal) m ρ c main_arg4 = m ((c : Thread nD τ).loc main_arg4) :=
  W1_of_not_written m ρ c main_arg4 (by not_written [hostOps0])
/-- The column of source-degree norms. -/
theorem V1_v14_apply (c : Dev nD) (n : Fin 100000) :
    V1 (F := Ideal) m ρ c main_v14 (ix2 n 0)
      = Cert.ReferenceIdeal.Read.val_main_v6 (F := Ideal) (m ((c : Thread nD τ).loc main_arg1)) (ix1 n) := by
  have e : (V1 (F := Ideal) m ρ c main_v14 : S100000x1.Idx → EReal)
      = shapeCast S100000x1 (Cert.ReferenceIdeal.Read.val_main_v6 (F := Ideal) (m ((c : Thread nD τ).loc main_arg1)))
          shapeCasts_S100000_S100000x1 := by
    show StableHlo.after hostOps0 (W0 m ρ c) (Proc.devRef .tc main_v14) = _
    after_results
    rfl
  exact (congrFun e (ix2 n 0)).trans (col_apply _ _ n)

/-! ## Across region 0: a buffer that is none of its arrays is as entered; its output is what the pipeline leaves -/

private theorem W2_arg1 (c : Dev nD) : W2 (F := Ideal) m ρ c (Proc.devRef .tc main_arg1) = m ((c : Thread nD τ).loc main_arg1) :=
  (W2_of_ne m ρ c main_arg1 (by decide)).trans (W1_arg1 m ρ c)
private theorem W2_arg2 (c : Dev nD) : W2 (F := Ideal) m ρ c (Proc.devRef .tc main_arg2) = m ((c : Thread nD τ).loc main_arg2) :=
  (W2_of_ne m ρ c main_arg2 (by decide)).trans (W1_arg2 m ρ c)
private theorem W2_arg3 (c : Dev nD) : W2 (F := Ideal) m ρ c (Proc.devRef .tc main_arg3) = m ((c : Thread nD τ).loc main_arg3) :=
  (W2_of_ne m ρ c main_arg3 (by decide)).trans (W1_arg3 m ρ c)
private theorem W2_arg5 (c : Dev nD) : W2 (F := Ideal) m ρ c (Proc.devRef .tc main_arg5) = m ((c : Thread nD τ).loc main_arg5) :=
  (W2_of_ne m ρ c main_arg5 (by decide)).trans (W1_arg5 m ρ c)
private theorem W2_arg6 (c : Dev nD) : W2 (F := Ideal) m ρ c (Proc.devRef .tc main_arg6) = m ((c : Thread nD τ).loc main_arg6) :=
  (W2_of_ne m ρ c main_arg6 (by decide)).trans (W1_arg6 m ρ c)
private theorem W2_arg7 (c : Dev nD) : W2 (F := Ideal) m ρ c (Proc.devRef .tc main_arg7) = m ((c : Thread nD τ).loc main_arg7) :=
  (W2_of_ne m ρ c main_arg7 (by decide)).trans (W1_arg7 m ρ c)
private theorem W2_arg8 (c : Dev nD) : W2 (F := Ideal) m ρ c (Proc.devRef .tc main_arg8) = m ((c : Thread nD τ).loc main_arg8) :=
  (W2_of_ne m ρ c main_arg8 (by decide)).trans (W1_arg8 m ρ c)
private theorem W2_arg9 (c : Dev nD) : W2 (F := Ideal) m ρ c (Proc.devRef .tc main_arg9) = m ((c : Thread nD τ).loc main_arg9) :=
  (W2_of_ne m ρ c main_arg9 (by decide)).trans (W1_arg9 m ρ c)
private theorem W2_v6 (c : Dev nD) :
    (W2 (F := Ideal) m ρ c (Proc.devRef .tc main_v6) : S100000.Idx → EReal)
      = Cert.ReferenceIdeal.Read.val_main_v6 (F := Ideal) (m ((c : Thread nD τ).loc main_arg1)) :=
  (W2_of_ne m ρ c main_v6 (by decide)).trans (W1_v6 m ρ c)
private theorem W2_v13 (c : Dev nD) :
    (W2 (F := Ideal) m ρ c (Proc.devRef .tc main_v13) : S100000.Idx → EReal)
      = Cert.ReferenceIdeal.Read.val_main_v13 (F := Ideal) (m ((c : Thread nD τ).loc main_arg2)) :=
  (W2_of_ne m ρ c main_v13 (by decide)).trans (W1_v13 m ρ c)
private theorem W2_v15 (c : Dev nD) :
    W2 (F := Ideal) m ρ c (Proc.devRef .tc main_v15) = (dat0 (F := Ideal) (V1 m ρ) c).arrAt 3 cfg0.N :=
  W2_arr m ρ c 3

/-! ## Region 1's entry -/

/-- The layer-0 aggregate: the scatter-add over the targets of the rows of region 0's output gathered at the sources. -/
theorem V4_v19 (c : Dev nD) :
    V4 (F := Ideal) m ρ c main_v19
      = Host.scatterAdd (F := Ideal) (φ := .f32) Cert.ReferenceIdeal.scatter_S100000x128_S1600000x1_S1600000x128_1_0_0_1
          (Cert.ReferenceIdeal.Read.val_main_v25 (F := Ideal))
          (Cert.ReferenceIdeal.Read.val_main_v26 (F := Ideal) (m ((c : Thread nD τ).loc main_arg2)))
          (Host.gather Cert.ReferenceIdeal.gather_S100000x128_S1600000x1_S1600000x128_1_0_n_n_0_1_1128
            ((dat0 (F := Ideal) (V1 m ρ) c).arrAt 3 cfg0.N)
            (Cert.ReferenceIdeal.Read.val_main_v2 (F := Ideal) (m ((c : Thread nD τ).loc main_arg1)))) := by
  show StableHlo.after hostOps1_1 (W3 m ρ c) (Proc.devRef .tc main_v19) = _
  after_results
  rw [W2_arg2 m ρ c]
  rw [show W2 m ρ c (Proc.devRef .tc (StableHlo.TRef.of (T := ⟨S100000x128, .f32⟩) main_v15).ref) = _ from W2_v15 m ρ c]
  rw [show W2 m ρ c (Proc.devRef .tc (StableHlo.TRef.of (T := ⟨S1600000, .i32⟩) main_arg1).ref) = _ from W2_arg1 m ρ c]
  generalize (dat0 (F := Ideal) (V1 m ρ) c).arrAt 3 cfg0.N = A
  generalize m ((c : Thread nD τ).loc main_arg1) = x1
  generalize m ((c : Thread nD τ).loc main_arg2) = x2
  rfl

theorem V4_v21_apply (c : Dev nD) (n : Fin 100000) :
    V4 (F := Ideal) m ρ c main_v21 (ix2 n 0)
      = Cert.ReferenceIdeal.Read.val_main_v13 (F := Ideal) (m ((c : Thread nD τ).loc main_arg2)) (ix1 n) := by
  have e : (V4 (F := Ideal) m ρ c main_v21 : S100000x1.Idx → EReal)
      = shapeCast S100000x1 (Cert.ReferenceIdeal.Read.val_main_v13 (F := Ideal) (m ((c : Thread nD τ).loc main_arg2)))
          shapeCasts_S100000_S100000x1 := by
    show StableHlo.after hostOps1_1 (W3 m ρ c) (Proc.devRef .tc main_v21) = _
    after_results
    rw [W2_v13 m ρ c]
    rfl
  exact (congrFun e (ix2 n 0)).trans (col_apply _ _ n)
theorem V4_v22_apply (c : Dev nD) (n : Fin 100000) :
    V4 (F := Ideal) m ρ c main_v22 (ix2 n 0)
      = Cert.ReferenceIdeal.Read.val_main_v6 (F := Ideal) (m ((c : Thread nD τ).loc main_arg1)) (ix1 n) := by
  have e : (V4 (F := Ideal) m ρ c main_v22 : S100000x1.Idx → EReal)
      = shapeCast S100000x1 (Cert.ReferenceIdeal.Read.val_main_v6 (F := Ideal) (m ((c : Thread nD τ).loc main_arg1)))
          shapeCasts_S100000_S100000x1 := by
    show StableHlo.after hostOps1_1 (W3 m ρ c) (Proc.devRef .tc main_v22) = _
    after_results
    rw [W2_v6 m ρ c]
    rfl
  exact (congrFun e (ix2 n 0)).trans (col_apply _ _ n)
theorem V4_v23_apply (c : Dev nD) (k : Fin 128) :
    V4 (F := Ideal) m ρ c main_v23 (ix2 0 k) = m ((c : Thread nD τ).loc main_arg5) (ix1 k) := by
  have e : (V4 (F := Ideal) m ρ c main_v23 : S1x128.Idx → EReal)
      = shapeCast S1x128 (m ((c : Thread nD τ).loc main_arg5) : S128.Idx → EReal) shapeCasts_S128_S1x128 := by
    show StableHlo.after hostOps1_1 (W3 m ρ c) (Proc.devRef .tc main_v23) = _
    after_results
    rw [W2_arg5 m ρ c]
    rfl
  exact (congrFun e (ix2 0 k)).trans (row_apply _ _ k)
/-- The joined weights of layers 1 and 2, before the index is read. -/
private theorem V4_v20 (c : Dev nD) :
    (V4 (F := Ideal) m ρ c main_v20 : S128x128.Idx → EReal)
      = concatenate S128x128 1 [⟨S128x64, (m ((c : Thread nD τ).loc main_arg6) : S128x64.Idx → EReal)⟩,
          ⟨S128x64, (m ((c : Thread nD τ).loc main_arg8) : S128x64.Idx → EReal)⟩] concatenates_S128x64_S128x64_S128x128_d1 := by
  show StableHlo.after hostOps1_1 (W3 m ρ c) (Proc.devRef .tc main_v20) = _
  after_results
  rw [W2_arg6 m ρ c, W2_arg8 m ρ c]
theorem V4_v20_lo (c : Dev nD) (k : Fin 128) (j : Fin 64) :
    V4 (F := Ideal) m ρ c main_v20 (ix2 k (lo j)) = m ((c : Thread nD τ).loc main_arg6) (ix2 k j) :=
  (congrFun (V4_v20 m ρ c) (ix2 k (lo j))).trans
    (concatenate_pair_apply_left (t := S128x128) (s₁ := S128x64) (s₂ := S128x64) 1 _ _ _ (ix2 k (lo j)) rfl (ix2 k j)
      fun b => match b with | ⟨0, _⟩ => rfl | ⟨1, _⟩ => rfl)
theorem V4_v20_hi (c : Dev nD) (k : Fin 128) (j : Fin 64) :
    V4 (F := Ideal) m ρ c main_v20 (ix2 k (hi j)) = m ((c : Thread nD τ).loc main_arg8) (ix2 k j) :=
  (congrFun (V4_v20 m ρ c) (ix2 k (hi j))).trans
    (concatenate_pair_apply_right (t := S128x128) (s₁ := S128x64) (s₂ := S128x64) 1 _ _ _ (ix2 k (hi j)) rfl rfl (ix2 k j)
      (fun b => match b with | ⟨0, _⟩ => fun _ => rfl | ⟨1, _⟩ => fun h => absurd rfl h)
      (by show j.val + 64 = 64 + j.val; omega))

/-! ## Across the middle stretches and region 1 -/

/-- A buffer neither middle stretch writes holds at region 1's entry what it held at region 0's exit. -/
private theorem W4_of_not_written (c : Dev nD) (b : Ref sig .tc)
    (h1 : ∀ op ∈ (hostOps1_1 : List (HloOp τ sig (Elt Ideal))), Proc.devRef (τ := τ) .tc b ∉ op.writes)
    (h0 : ∀ op ∈ (hostOps1 : List (HloOp τ sig (Elt Ideal))), Proc.devRef (τ := τ) .tc b ∉ op.writes) :
    W4 (F := Ideal) m ρ c (Proc.devRef .tc b) = W2 m ρ c (Proc.devRef .tc b) :=
  (StableHlo.after_of_forall_not_mem _ _ h1).trans (StableHlo.after_of_forall_not_mem _ _ h0)

private theorem W5_arg1 (c : Dev nD) : W5 (F := Ideal) m ρ c (Proc.devRef .tc main_arg1) = m ((c : Thread nD τ).loc main_arg1) :=
  (W5_of_ne m ρ c main_arg1 (by decide)).trans
    ((W4_of_not_written m ρ c main_arg1 (by not_written [hostOps1_1]) (by not_written [hostOps1])).trans (W2_arg1 m ρ c))
private theorem W5_arg2 (c : Dev nD) : W5 (F := Ideal) m ρ c (Proc.devRef .tc main_arg2) = m ((c : Thread nD τ).loc main_arg2) :=
  (W5_of_ne m ρ c main_arg2 (by decide)).trans
    ((W4_of_not_written m ρ c main_arg2 (by not_written [hostOps1_1]) (by not_written [hostOps1])).trans (W2_arg2 m ρ c))
private theorem W5_arg3 (c : Dev nD) : W5 (F := Ideal) m ρ c (Proc.devRef .tc main_arg3) = m ((c : Thread nD τ).loc main_arg3) :=
  (W5_of_ne m ρ c main_arg3 (by decide)).trans
    ((W4_of_not_written m ρ c main_arg3 (by not_written [hostOps1_1]) (by not_written [hostOps1])).trans (W2_arg3 m ρ c))
private theorem W5_arg7 (c : Dev nD) : W5 (F := Ideal) m ρ c (Proc.devRef .tc main_arg7) = m ((c : Thread nD τ).loc main_arg7) :=
  (W5_of_ne m ρ c main_arg7 (by decide)).trans
    ((W4_of_not_written m ρ c main_arg7 (by not_written [hostOps1_1]) (by not_written [hostOps1])).trans (W2_arg7 m ρ c))
private theorem W5_arg9 (c : Dev nD) : W5 (F := Ideal) m ρ c (Proc.devRef .tc main_arg9) = m ((c : Thread nD τ).loc main_arg9) :=
  (W5_of_ne m ρ c main_arg9 (by decide)).trans
    ((W4_of_not_written m ρ c main_arg9 (by not_written [hostOps1_1]) (by not_written [hostOps1])).trans (W2_arg9 m ρ c))
private theorem W5_v13 (c : Dev nD) :
    (W5 (F := Ideal) m ρ c (Proc.devRef .tc main_v13) : S100000.Idx → EReal)
      = Cert.ReferenceIdeal.Read.val_main_v13 (F := Ideal) (m ((c : Thread nD τ).loc main_arg2)) :=
  (W5_of_ne m ρ c main_v13 (by decide)).trans
    ((W4_of_not_written m ρ c main_v13 (by not_written [hostOps1_1]) (by not_written [hostOps1])).trans (W2_v13 m ρ c))
private theorem W5_v24 (c : Dev nD) :
    W5 (F := Ideal) m ρ c (Proc.devRef .tc main_v24) = (dat1 (F := Ideal) (V4 m ρ) c).arrAt 5 cfg1.N :=
  W5_arr m ρ c 5

/-! ## Region 2's entry -/

/-- The joined aggregate of layers 1 and 2. -/
theorem V7_v28 (c : Dev nD) :
    V7 (F := Ideal) m ρ c main_v28
      = Host.scatterAdd (F := Ideal) (φ := .f32) Cert.ReferenceIdeal.scatter_S100000x128_S1600000x1_S1600000x128_1_0_0_1
          (Cert.ReferenceIdeal.Read.val_main_v25 (F := Ideal))
          (Cert.ReferenceIdeal.Read.val_main_v26 (F := Ideal) (m ((c : Thread nD τ).loc main_arg2)))
          (Host.gather Cert.ReferenceIdeal.gather_S100000x128_S1600000x1_S1600000x128_1_0_n_n_0_1_1128
            ((dat1 (F := Ideal) (V4 m ρ) c).arrAt 5 cfg1.N)
            (Cert.ReferenceIdeal.Read.val_main_v2 (F := Ideal) (m ((c : Thread nD τ).loc main_arg1)))) := by
  show StableHlo.after hostOps2_1 (W6 m ρ c) (Proc.devRef .tc main_v28) = _
  after_results
  rw [W5_arg2 m ρ c]
  rw [show W5 m ρ c (Proc.devRef .tc (StableHlo.TRef.of (T := ⟨S100000x128, .f32⟩) main_v24).ref) = _ from W5_v24 m ρ c]
  rw [show W5 m ρ c (Proc.devRef .tc (StableHlo.TRef.of (T := ⟨S1600000, .i32⟩) main_arg1).ref) = _ from W5_arg1 m ρ c]
  generalize (dat1 (F := Ideal) (V4 m ρ) c).arrAt 5 cfg1.N = A
  generalize m ((c : Thread nD τ).loc main_arg1) = x1
  generalize m ((c : Thread nD τ).loc main_arg2) = x2
  rfl
theorem V7_v30_apply (c : Dev nD) (n : Fin 100000) :
    V7 (F := Ideal) m ρ c main_v30 (ix2 n 0)
      = Cert.ReferenceIdeal.Read.val_main_v13 (F := Ideal) (m ((c : Thread nD τ).loc main_arg2)) (ix1 n) := by
  have e : (V7 (F := Ideal) m ρ c main_v30 : S100000x1.Idx → EReal)
      = shapeCast S100000x1 (Cert.ReferenceIdeal.Read.val_main_v13 (F := Ideal) (m ((c : Thread nD τ).loc main_arg2)))
          shapeCasts_S100000_S100000x1 := by
    show StableHlo.after hostOps2_1 (W6 m ρ c) (Proc.devRef .tc main_v30) = _
    after_results
    rw [W5_v13 m ρ c]
    rfl
  exact (congrFun e (ix2 n 0)).trans (col_apply _ _ n)
/-- The joined biases of layers 1 and 2 as a row, before the index is read. -/
private theorem V7_v31 (c : Dev nD) :
    (V7 (F := Ideal) m ρ c main_v31 : S1x128.Idx → EReal)
      = shapeCast S1x128
          (concatenate S128 0 [⟨S64, (m ((c : Thread nD τ).loc main_arg7) : S64.Idx → EReal)⟩,
            ⟨S64, (m ((c : Thread nD τ).loc main_arg9) : S64.Idx → EReal)⟩] concatenates_S64_S64_S128_d0)
          shapeCasts_S128_S1x128 := by
  show StableHlo.after hostOps2_1 (W6 m ρ c) (Proc.devRef .tc main_v31) = _
  after_results
  rw [W5_arg7 m ρ c, W5_arg9 m ρ c]
  rfl
theorem V7_v31_lo (c : Dev nD) (j : Fin 64) :
    V7 (F := Ideal) m ρ c main_v31 (ix2 0 (lo j)) = m ((c : Thread nD τ).loc main_arg7) (ix1 j) :=
  (congrFun (V7_v31 m ρ c) (ix2 0 (lo j))).trans ((row_apply _ _ (lo j)).trans
    (concatenate_pair_apply_left (t := S128) (s₁ := S64) (s₂ := S64) 0 _ _ _ (ix1 (lo j)) rfl (ix1 j)
      fun b => match b with | ⟨0, _⟩ => rfl))
theorem V7_v31_hi (c : Dev nD) (j : Fin 64) :
    V7 (F := Ideal) m ρ c main_v31 (ix2 0 (hi j)) = m ((c : Thread nD τ).loc main_arg9) (ix1 j) :=
  (congrFun (V7_v31 m ρ c) (ix2 0 (hi j))).trans ((row_apply _ _ (hi j)).trans
    (concatenate_pair_apply_right (t := S128) (s₁ := S64) (s₂ := S64) 0 _ _ _ (ix1 (hi j)) rfl rfl (ix1 j)
      (fun b => match b with | ⟨0, _⟩ => fun h => absurd rfl h)
      (by show j.val + 64 = 64 + j.val; omega)))
theorem V7_arg3 (c : Dev nD) : V7 (F := Ideal) m ρ c main_arg3 = m ((c : Thread nD τ).loc main_arg3) :=
  ((StableHlo.after_of_forall_not_mem (b := Proc.devRef .tc main_arg3) hostOps2_1 (W6 m ρ c) (by not_written [hostOps2_1])).trans
    (StableHlo.after_of_forall_not_mem (b := Proc.devRef .tc main_arg3) hostOps2 (W5 m ρ c) (by not_written [hostOps2]))).trans
    (W5_arg3 m ρ c)

end Cert.KernelIdeal.HostVal

end
-- ==== Proof.Bridge.lean ====
/-
  The kernel program's result is the reference's result, array by array down the program.
  Region 0's output is the reference's layer-0 product (both are (x ⊙ out_norm) · W0, index by index). On
  non-negative sources the reference's index normalisation is the identity, so the two programs gather the same
  rows and the layer-0 aggregates agree. Region 1's output has the reference's layer-1 product in its left 64
  columns and its layer-2 product in its right 64 (the joined weight matrix has W1, W2 there). A row gather
  followed by a row scatter-add acts on every column by itself, so the joined aggregate has the two reference
  aggregates in its halves; region 2 then computes the reference's last line pointwise.
-/
import proofs.«418309_j64063732187138_2_alg».proof.Proof.Gen.KernelIdeal.Frame
import proofs.«418309_j64063732187138_2_alg».proof.Proof.Gen.ReferenceIdeal.Read
import proofs.«418309_j64063732187138_2_alg».proof.Proof.Region0
import proofs.«418309_j64063732187138_2_alg».proof.Proof.Region1
import proofs.«418309_j64063732187138_2_alg».proof.Proof.Region2
import proofs.«418309_j64063732187138_2_alg».proof.Proof.Cols
import proofs.«418309_j64063732187138_2_alg».proof.Proof.PreSrc
import proofs.«418309_j64063732187138_2_alg».proof.Proof.RefRead
import proofs.«418309_j64063732187138_2_alg».proof.Proof.KHost
import Idealize.ShloMosaic.Lib.ValueIdx

noncomputable section

namespace Cert.Bridge

open Cert.KernelIdeal Cert.KernelIdeal.Gen Idealize.ShloMosaic Idealize.ShloMosaic.TcCoe Idealize.SL.Sem Idealize.ShloMosaic.ValueIdx
open Cert.ReferenceIdeal.Read (val_main_v2 val_main_v6 val_main_v13 val_main_v17 val_main_v22 val_main_v23 val_main_v24 val_main_v25
  val_main_v26 val_main_v27 val_main_v34 val_main_v52 val_main_v57 val_main_v58 val_main_v59 val_main_v60 val_main_v61 val_main_v62
  val_main_v86 val_main_v91 val_main_v92 val_main_v93 val_main_v94 val_main_v95 val_main_v96 val_main_v105)

variable (m : (ℓ : Loc nD τ sig) → Buf (Elt Ideal) ℓ) (ρ : Dev nD → PrngReg)

/-- Core c's argument arrays as launched. -/
abbrev x0 (c : Dev nD) : S100000x256.Idx → EReal := m ((c : Thread nD τ).loc main_arg0)
abbrev x1 (c : Dev nD) : IVec S1600000 32 := m ((c : Thread nD τ).loc main_arg1)
abbrev x2 (c : Dev nD) : IVec S1600000 32 := m ((c : Thread nD τ).loc main_arg2)
abbrev x3 (c : Dev nD) : S100000x64.Idx → EReal := m ((c : Thread nD τ).loc main_arg3)
abbrev x4 (c : Dev nD) : S256x128.Idx → EReal := m ((c : Thread nD τ).loc main_arg4)
abbrev x5 (c : Dev nD) : S128.Idx → EReal := m ((c : Thread nD τ).loc main_arg5)
abbrev x6 (c : Dev nD) : S128x64.Idx → EReal := m ((c : Thread nD τ).loc main_arg6)
abbrev x7 (c : Dev nD) : S64.Idx → EReal := m ((c : Thread nD τ).loc main_arg7)
abbrev x8 (c : Dev nD) : S128x64.Idx → EReal := m ((c : Thread nD τ).loc main_arg8)
abbrev x9 (c : Dev nD) : S64.Idx → EReal := m ((c : Thread nD τ).loc main_arg9)

/-- The arrays each region is entered with, at their literal types. -/
abbrev e0x (c : Dev nD) : S100000x256.Idx → EReal := V1 (F := Ideal) m ρ c main_arg0
abbrev e0s (c : Dev nD) : S100000x1.Idx → EReal := V1 (F := Ideal) m ρ c main_v14
abbrev e0w (c : Dev nD) : S256x128.Idx → EReal := V1 (F := Ideal) m ρ c main_arg4
abbrev e1a (c : Dev nD) : S100000x128.Idx → EReal := V4 (F := Ideal) m ρ c main_v19
abbrev e1i (c : Dev nD) : S100000x1.Idx → EReal := V4 (F := Ideal) m ρ c main_v21
abbrev e1b (c : Dev nD) : S1x128.Idx → EReal := V4 (F := Ideal) m ρ c main_v23
abbrev e1o (c : Dev nD) : S100000x1.Idx → EReal := V4 (F := Ideal) m ρ c main_v22
abbrev e1w (c : Dev nD) : S128x128.Idx → EReal := V4 (F := Ideal) m ρ c main_v20
abbrev e2a (c : Dev nD) : S100000x128.Idx → EReal := V7 (F := Ideal) m ρ c main_v28
abbrev e2i (c : Dev nD) : S100000x1.Idx → EReal := V7 (F := Ideal) m ρ c main_v30
abbrev e2b (c : Dev nD) : S1x128.Idx → EReal := V7 (F := Ideal) m ρ c main_v31
abbrev e2z (c : Dev nD) : S100000x64.Idx → EReal := V7 (F := Ideal) m ρ c main_arg3

/-- Region 0's output is the reference's layer-0 product. -/
theorem layer0_product (c : Dev nD) :
    (dat0 (F := Ideal) (V1 m ρ) c).arrAt 3 cfg0.N = val_main_v17 (F := Ideal) (x0 m c) (x1 m c) (x4 m c) := by
  rw [Cert.KernelIdeal.Region0.final0]
  funext i
  obtain ⟨n, j, rfl⟩ : ∃ (n : Fin 100000) (j : Fin 128), i = ix2 n j := ⟨i 0, i 1, eq_ix2 i⟩
  rw [Cert.RefRead.ref17_apply]
  show ∑ k : Fin 256, (e0x m ρ c (ix2 n k) * e0s m ρ c (ix2 n 0)) * e0w m ρ c (ix2 k j) = _
  refine Finset.sum_congr rfl fun k _ => ?_
  have h1 : e0x m ρ c = x0 m c := Cert.KernelIdeal.HostVal.V1_arg0 m ρ c
  have h2 : e0s m ρ c (ix2 n 0) = val_main_v6 (F := Ideal) (x1 m c) (ix1 n) := Cert.KernelIdeal.HostVal.V1_v14_apply m ρ c n
  have h3 : e0w m ρ c = x4 m c := Cert.KernelIdeal.HostVal.V1_arg4 m ρ c
  rw [h1, h2, h3]

/-- On non-negative sources the layer-0 aggregates agree. -/
theorem layer0_aggregate (hsrc : ∀ (c : Dev nD) (e : S1600000.Idx), 0 ≤ (x1 m c e).toInt) (c : Dev nD) :
    V4 (F := Ideal) m ρ c main_v19 = val_main_v27 (F := Ideal) (x0 m c) (x1 m c) (x2 m c) (x4 m c) := by
  rw [Cert.KernelIdeal.HostVal.V4_v19, layer0_product]
  unfold val_main_v27 val_main_v24 val_main_v23
  rw [(Cert.PreSrc.normalise_id (x1 m c) (hsrc c)).1]
  rfl

/-- Region 1's output holds the reference's layer-1 product in its left half. -/
theorem joined_product_lo (hsrc : ∀ (c : Dev nD) (e : S1600000.Idx), 0 ≤ (x1 m c e).toInt) (c : Dev nD) (n : Fin 100000) (j : Fin 64) :
    (dat1 (F := Ideal) (V4 m ρ) c).arrAt 5 cfg1.N (ix2 n (Cert.Cols.lo j))
      = val_main_v52 (F := Ideal) (x0 m c) (x1 m c) (x2 m c) (x4 m c) (x5 m c) (x6 m c) (ix2 n j) := by
  rw [Cert.KernelIdeal.Region1.final1, Cert.RefRead.ref52_apply]
  show ∑ k : Fin 128, (max (e1a m ρ c (ix2 n k) * e1i m ρ c (ix2 n 0) + e1b m ρ c (ix2 0 k)) 0
      * e1o m ρ c (ix2 n 0)) * e1w m ρ c (ix2 k (Cert.KernelIdeal.HostVal.lo j)) = _
  refine Finset.sum_congr rfl fun k _ => ?_
  have h1 : e1a m ρ c = val_main_v27 (F := Ideal) (x0 m c) (x1 m c) (x2 m c) (x4 m c) := layer0_aggregate m ρ hsrc c
  have h2 : e1i m ρ c (ix2 n 0) = val_main_v13 (F := Ideal) (x2 m c) (ix1 n) := Cert.KernelIdeal.HostVal.V4_v21_apply m ρ c n
  have h3 : e1b m ρ c (ix2 0 k) = x5 m c (ix1 k) := Cert.KernelIdeal.HostVal.V4_v23_apply m ρ c k
  have h4 : e1o m ρ c (ix2 n 0) = val_main_v6 (F := Ideal) (x1 m c) (ix1 n) := Cert.KernelIdeal.HostVal.V4_v22_apply m ρ c n
  have h5 : e1w m ρ c (ix2 k (Cert.KernelIdeal.HostVal.lo j)) = x6 m c (ix2 k j) := Cert.KernelIdeal.HostVal.V4_v20_lo m ρ c k j
  rw [h1, h2, h3, h4, h5, Cert.RefRead.ref34_apply]

/-- Region 1's output holds the reference's layer-2 product in its right half. -/
theorem joined_product_hi (hsrc : ∀ (c : Dev nD) (e : S1600000.Idx), 0 ≤ (x1 m c e).toInt) (c : Dev nD) (n : Fin 100000) (j : Fin 64) :
    (dat1 (F := Ideal) (V4 m ρ) c).arrAt 5 cfg1.N (ix2 n (Cert.Cols.hi j))
      = val_main_v86 (F := Ideal) (x0 m c) (x1 m c) (x2 m c) (x4 m c) (x5 m c) (x8 m c) (ix2 n j) := by
  rw [Cert.KernelIdeal.Region1.final1, Cert.RefRead.ref86_apply]
  show ∑ k : Fin 128, (max (e1a m ρ c (ix2 n k) * e1i m ρ c (ix2 n 0) + e1b m ρ c (ix2 0 k)) 0
      * e1o m ρ c (ix2 n 0)) * e1w m ρ c (ix2 k (Cert.KernelIdeal.HostVal.hi j)) = _
  refine Finset.sum_congr rfl fun k _ => ?_
  have h1 : e1a m ρ c = val_main_v27 (F := Ideal) (x0 m c) (x1 m c) (x2 m c) (x4 m c) := layer0_aggregate m ρ hsrc c
  have h2 : e1i m ρ c (ix2 n 0) = val_main_v13 (F := Ideal) (x2 m c) (ix1 n) := Cert.KernelIdeal.HostVal.V4_v21_apply m ρ c n
  have h3 : e1b m ρ c (ix2 0 k) = x5 m c (ix1 k) := Cert.KernelIdeal.HostVal.V4_v23_apply m ρ c k
  have h4 : e1o m ρ c (ix2 n 0) = val_main_v6 (F := Ideal) (x1 m c) (ix1 n) := Cert.KernelIdeal.HostVal.V4_v22_apply m ρ c n
  have h5 : e1w m ρ c (ix2 k (Cert.KernelIdeal.HostVal.hi j)) = x8 m c (ix2 k j) := Cert.KernelIdeal.HostVal.V4_v20_hi m ρ c k j
  rw [h1, h2, h3, h4, h5, Cert.RefRead.ref34_apply]

/-- The joined aggregate holds the reference's layer-1 aggregate in its left half. -/
theorem joined_aggregate_lo (hsrc : ∀ (c : Dev nD) (e : S1600000.Idx), 0 ≤ (x1 m c e).toInt) (c : Dev nD) (n : Fin 100000) (j : Fin 64) :
    V7 (F := Ideal) m ρ c main_v28 (ix2 n (Cert.Cols.lo j))
      = val_main_v62 (F := Ideal) (x0 m c) (x1 m c) (x2 m c) (x4 m c) (x5 m c) (x6 m c) (ix2 n j) := by
  rw [Cert.KernelIdeal.HostVal.V7_v28]
  unfold val_main_v62 val_main_v59 val_main_v58
  rw [(Cert.PreSrc.normalise_id (x1 m c) (hsrc c)).2.1]
  exact Cert.Cols.colsplit_lo _ _ _ _ _ _ (fun r q => joined_product_lo m ρ hsrc c r q) (fun _ _ => rfl) n j

/-- The joined aggregate holds the reference's layer-2 aggregate in its right half. -/
theorem joined_aggregate_hi (hsrc : ∀ (c : Dev nD) (e : S1600000.Idx), 0 ≤ (x1 m c e).toInt) (c : Dev nD) (n : Fin 100000) (j : Fin 64) :
    V7 (F := Ideal) m ρ c main_v28 (ix2 n (Cert.Cols.hi j))
      = val_main_v96 (F := Ideal) (x0 m c) (x1 m c) (x2 m c) (x4 m c) (x5 m c) (x8 m c) (ix2 n j) := by
  rw [Cert.KernelIdeal.HostVal.V7_v28]
  unfold val_main_v96 val_main_v93 val_main_v92
  rw [(Cert.PreSrc.normalise_id (x1 m c) (hsrc c)).2.2]
  exact Cert.Cols.colsplit_hi _ _ _ _ _ _ (fun r q => joined_product_hi m ρ hsrc c r q) (fun _ _ => rfl) n j

/-- Region 2's output is the reference's result. -/
theorem result_eq (hsrc : ∀ (c : Dev nD) (e : S1600000.Idx), 0 ≤ (x1 m c e).toInt) (c : Dev nD) :
    (dat2 (F := Ideal) (V7 m ρ) c).arrAt 4 cfg2.N
      = val_main_v105 (F := Ideal) (x0 m c) (x1 m c) (x2 m c) (x3 m c) (x4 m c) (x5 m c) (x6 m c) (x7 m c) (x8 m c) (x9 m c) := by
  rw [Cert.KernelIdeal.Region2.final2]
  funext i
  obtain ⟨n, j, rfl⟩ : ∃ (n : Fin 100000) (j : Fin 64), i = ix2 n j := ⟨i 0, i 1, eq_ix2 i⟩
  rw [Cert.RefRead.ref105_apply]
  show (e2a m ρ c (ix2 n (Cert.Cols.lo j)) * e2i m ρ c (ix2 n 0) + e2b m ρ c (ix2 0 (Cert.KernelIdeal.HostVal.lo j)))
      + e2z m ρ c (ix2 n j) * Ideal.exp (e2a m ρ c (ix2 n (Cert.Cols.hi j)) * e2i m ρ c (ix2 n 0)
        + e2b m ρ c (ix2 0 (Cert.KernelIdeal.HostVal.hi j))) = _
  have h1 : e2a m ρ c (ix2 n (Cert.Cols.lo j)) = val_main_v62 (F := Ideal) (x0 m c) (x1 m c) (x2 m c) (x4 m c) (x5 m c) (x6 m c) (ix2 n j) :=
    joined_aggregate_lo m ρ hsrc c n j
  have h2 : e2a m ρ c (ix2 n (Cert.Cols.hi j)) = val_main_v96 (F := Ideal) (x0 m c) (x1 m c) (x2 m c) (x4 m c) (x5 m c) (x8 m c) (ix2 n j) :=
    joined_aggregate_hi m ρ hsrc c n j
  have h3 : e2i m ρ c (ix2 n 0) = val_main_v13 (F := Ideal) (x2 m c) (ix1 n) := Cert.KernelIdeal.HostVal.V7_v30_apply m ρ c n
  have h4 : e2b m ρ c (ix2 0 (Cert.KernelIdeal.HostVal.lo j)) = x7 m c (ix1 j) := Cert.KernelIdeal.HostVal.V7_v31_lo m ρ c j
  have h5 : e2b m ρ c (ix2 0 (Cert.KernelIdeal.HostVal.hi j)) = x9 m c (ix1 j) := Cert.KernelIdeal.HostVal.V7_v31_hi m ρ c j
  have h6 : e2z m ρ c = x3 m c := Cert.KernelIdeal.HostVal.V7_arg3 m ρ c
  rw [h1, h2, h3, h4, h5, h6]

end Cert.Bridge

end
-- ==== Proof.lean ====
/-
  The certificate of the three-region graph-convolution kernel against its jnp reference.

  Both programs compute, for node features x, edges (src, dst), weights W0, W1, W2 and biases b0, b1, b2,
    h = max(S((x ⊙ o) W0) ⊙ i + b0, 0),  out = (S((h ⊙ o) W1) ⊙ i + b1) + noise ⊙ exp(S((h ⊙ o) W2) ⊙ i + b2),
  where o, i are the reciprocal square roots of the clamped out- and in-degrees and S gathers rows at src and
  scatter-adds them at dst. The kernel program does the three dense steps in three pipelined regions of fifty row
  blocks each, with W1, W2 joined into one 128-wide matrix, and leaves the gathers and scatter-adds to host
  operations; the reference is host operations only. The frames are the generated ones; the value claim is the
  chain of Proof/Bridge.lean over the regions' arrays (Proof/Region0–2.lean), the host values between them
  (Proof/KHost.lean), the reference's stages read at an index (Proof/RefRead.lean), the column-wise action of the
  gather and scatter-add (Proof/Cols.lean), and the precondition's statement that the sources are non-negative
  (Proof/PreSrc.lean), where the reference's index normalisation and the kernel's clamp agree.
-/
import proofs.«418309_j64063732187138_2_alg».proof.Defs
import proofs.«418309_j64063732187138_2_alg».proof.Proof.Gen.Kernel
import proofs.«418309_j64063732187138_2_alg».proof.Proof.Gen.Kernel.Skeleton
import proofs.«418309_j64063732187138_2_alg».proof.Proof.Gen.Kernel.Launch
import proofs.«418309_j64063732187138_2_alg».proof.Proof.Gen.Kernel.Points
import proofs.«418309_j64063732187138_2_alg».proof.Proof.Gen.Kernel.Frame
import proofs.«418309_j64063732187138_2_alg».proof.Proof.Gen.KernelIdeal
import proofs.«418309_j64063732187138_2_alg».proof.Proof.Gen.KernelIdeal.Skeleton
import proofs.«418309_j64063732187138_2_alg».proof.Proof.Gen.KernelIdeal.Launch
import proofs.«418309_j64063732187138_2_alg».proof.Proof.Gen.KernelIdeal.Points
import proofs.«418309_j64063732187138_2_alg».proof.Proof.Gen.KernelIdeal.Frame
import proofs.«418309_j64063732187138_2_alg».proof.Proof.Gen.ReferenceIdeal
import proofs.«418309_j64063732187138_2_alg».proof.Proof.Gen.Pre_finite_inputs
import proofs.«418309_j64063732187138_2_alg».proof.Proof.Gen.ReferenceIdeal.Run
import proofs.«418309_j64063732187138_2_alg».proof.Proof.Gen.ReferenceIdeal.Read
import proofs.«418309_j64063732187138_2_alg».proof.Proof.KRun
import proofs.«418309_j64063732187138_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments: the kernel program's result array
    is what its last region leaves, which the chain of Proof/Bridge.lean identifies with that stage under the
    precondition's non-negative sources; the reference's is its generated run. -/
theorem algebraic : Cert.algebraic_KernelIdeal_ReferenceIdeal := by
  intro m ρ m' ρ' hpre hagree
  have hsrc : ∀ (c : Dev Cert.KernelIdeal.nD) (e : Cert.KernelIdeal.S1600000.Idx), 0 ≤ (Cert.Bridge.x1 m c e).toInt :=
    fun c e => Cert.PreSrc.src_nonneg _ _ _ _ _ _ _ _ _ _ (hpre c) e
  refine ⟨fun c => Cert.ReferenceIdeal.Read.val_main_v105 (F := Ideal) (Cert.Bridge.x0 m c) (Cert.Bridge.x1 m c) (Cert.Bridge.x2 m c)
    (Cert.Bridge.x3 m c) (Cert.Bridge.x4 m c) (Cert.Bridge.x5 m c) (Cert.Bridge.x6 m c) (Cert.Bridge.x7 m c) (Cert.Bridge.x8 m c)
    (Cert.Bridge.x9 m c), ?_, ?_⟩
  · refine (θ_run Cert.KernelIdeal.defs _ _).mono (fun r h c => ⟨(h c).1.trans ?_, (h c).2⟩)
      (Cert.KernelIdeal.RunNamed.run_named (F := Ideal) m ρ)
    exact (Cert.KernelIdeal.Gen.W8_arr m ρ c 4).trans (Cert.Bridge.result_eq m ρ hsrc c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v105_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
